-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S32000x512 : Shape := ⟨2, ![32000, 512]⟩
abbrev S512x512 : Shape := ⟨2, ![512, 512]⟩
abbrev S2048x512 : Shape := ⟨2, ![2048, 512]⟩
abbrev S2048 : Shape := ⟨1, ![2048]⟩
abbrev S32000x2048 : Shape := ⟨2, ![32000, 2048]⟩
abbrev S32000 : Shape := ⟨1, ![32000]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S8x2048 : S_.BroadcastsInDim S8x2048 (![] : Fin 0 → Fin S8x2048.rank)
  reducesTo_S8x2048_S_d0_1 : S8x2048.ReducesTo [0, 1] S_

variable [Facts]

def fn_part2 {F : FTy → Type} [FloatOps F] (main_arg0 : IVec S8x2048 32) (main_arg8 : FVec F S32000 .f32) (main_v33 : IVec S_ 1) : IVec S_ 1 :=
  let main_v34 : FVec F S32000 .f32 := Host.absf main_arg8
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  let main_c_14 : IVec S_ 32 := constantI S_ 32 0#32
  let main_v39 : IVec S8x2048 32 := broadcastInDim S8x2048 ![] bcast_S_S8x2048 main_c_14
  let main_v40 : IVec S8x2048 1 := cmpi .sge main_arg0 main_v39
  let main_c_15 : IVec S_ 1 := constantI S_ 1 1#1
  let main_v41 : IVec S_ 1 := (fun x v => Host.reduce IntOp.andi x v reducesTo_S8x2048_S_d0_1 h_S_) main_v40 main_c_15
  let main_v42 : IVec S_ 1 := andi main_v38 main_v41
  let main_c_16 : IVec S_ 32 := constantI S_ 32 32000#32
  let main_v43 : IVec S8x2048 32 := broadcastInDim S8x2048 ![] bcast_S_S8x2048 main_c_16
  let main_v44 : IVec S8x2048 1 := cmpi .slt main_arg0 main_v43
  let main_c_17 : IVec S_ 1 := constantI S_ 1 1#1
  let main_v45 : IVec S_ 1 := (fun x v => Host.reduce IntOp.andi x v reducesTo_S8x2048_S_d0_1 h_S_) main_v44 main_c_17
  let main_v46 : IVec S_ 1 := andi main_v42 main_v45
  main_v46

def fn_part1 {F : FTy → Type} [FloatOps F] (main_arg0 : IVec S8x2048 32) (main_arg5 : FVec F S2048x512 .f32) (main_arg6 : FVec F S2048 .f32) (main_arg7 : FVec F S32000x2048 .f32) (main_arg8 : FVec F S32000 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S32000x2048 .f32 := Host.absf main_arg7
  let main_cst_10 : FVec F S_ .f32 := constant S_ .f32 0x7F800000#32
  let main_v30 : FVec F S32000x2048 .f32 := broadcastInDim S32000x2048 ![] bcast_S_S32000x2048 main_cst_10
  let main_v31 : IVec S32000x2048 1 := cmpf .olt main_v29 main_v30
  let main_c_11 : IVec S_ 1 := constantI S_ 1 1#1
  let main_v32 : IVec S_ 1 := (fun x v => Host.reduce IntOp.andi x v reducesTo_S32000x2048_S_d0_1 h_S_) main_v31 main_c_11
  let main_v33 : IVec S_ 1 := andi main_v28 main_v32
  fn_part2 (F := F) main_arg0 main_arg8 main_v33

def fn {F : FTy → Type} [FloatOps F] (main_arg0 : IVec S8x2048 32) (main_arg1 : FVec F S32000x512 .f32) (main_arg2 : FVec F S512x512 .f32) (main_arg3 : FVec F S512x512 .f32) (main_arg4 : FVec F S512x512 .f32) (main_arg5 : FVec F S2048x512 .f32) (main_arg6 : FVec F S2048 .f32) (main_arg7 : FVec F S32000x2048 .f32) (main_arg8 : FVec F S32000 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg0 main_arg5 main_arg6 main_arg7 main_arg8 main_v13 main_v16
-- ==== Kernel.lean ====
abbrev S8x2048 : Shape := ⟨2, ![8, 2048]⟩
abbrev S32000x512 : Shape := ⟨2, ![32000, 512]⟩
abbrev S512x512 : Shape := ⟨2, ![512, 512]⟩
abbrev S2048x512 : Shape := ⟨2, ![2048, 512]⟩
abbrev S2048 : Shape := ⟨1, ![2048]⟩
abbrev S32000x2048 : Shape := ⟨2, ![32000, 2048]⟩
abbrev S32000 : Shape := ⟨1, ![32000]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x512 : Shape := ⟨3, ![8, 2048, 512]⟩
abbrev S1x2048 : Shape := ⟨2, ![1, 2048]⟩
abbrev S1x32000 : Shape := ⟨2, ![1, 32000]⟩
abbrev S8x1x2048 : Shape := ⟨3, ![8, 1, 2048]⟩
abbrev S1x2048x512 : Shape := ⟨3, ![1, 2048, 512]⟩
abbrev S1x1x2048 : Shape := ⟨3, ![1, 1, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x512 : Shape := ⟨2, ![1, 512]⟩
abbrev S8x32000 : Shape := ⟨2, ![8, 32000]⟩
abbrev S640x2048 : Shape := ⟨2, ![640, 2048]⟩
abbrev S1x640 : Shape := ⟨2, ![1, 640]⟩
abbrev S8x640 : Shape := ⟨2, ![8, 640]⟩
abbrev S8 : Shape := ⟨1, ![8]⟩
abbrev S8x1 : Shape := ⟨2, ![8, 1]⟩

abbrev nBuf : Space → Nat
  | .hbm => 51
  | .vmem => 20
  | .smem => 0
  | _ => 0

abbrev bufTy : (tb : Table) → Fin (tcTables nBuf tb) → BufTy
  | .hbm, ⟨0, _⟩ => ⟨S8x2048, .i32⟩
  | .hbm, ⟨1, _⟩ => ⟨S32000x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048x512, .f32⟩
  | .hbm, ⟨6, _⟩ => ⟨S2048, .f32⟩
  | .hbm, ⟨7, _⟩ => ⟨S32000x2048, .f32⟩
  | .hbm, ⟨8, _⟩ => ⟨S32000, .f32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S1, .i32⟩
  | .hbm, ⟨18, _⟩ => ⟨S_, .i32⟩
  | .hbm, ⟨19, _⟩ => ⟨S8x2048x1, .i32⟩
  | .hbm, ⟨20, _⟩ => ⟨S8x2048x1, .i1⟩
  | .hbm, ⟨21, _⟩ => ⟨S1x1x1, .i32⟩
  | .hbm, ⟨22, _⟩ => ⟨S8x2048x1, .i32⟩
  | .hbm, ⟨23, _⟩ => ⟨S8x2048x1, .i1⟩
  | .hbm, ⟨24, _⟩ => ⟨S8x2048x1, .i1⟩
  | .hbm, ⟨25, _⟩ => ⟨S_, .i1⟩
  | .hbm, ⟨26, _⟩ => ⟨S8x2048, .i1⟩
  | .hbm, ⟨27, _⟩ => ⟨S8x2048x512, .f32⟩
  | .hbm, ⟨28, _⟩ => ⟨S8x2048x512, .i1⟩
  | .hbm, ⟨29, _⟩ => ⟨S_, .f32⟩
  | .hbm, ⟨30, _⟩ => ⟨S8x2048x512, .f32⟩
  | .hbm, ⟨31, _⟩ => ⟨S8x2048x512, .f32⟩
  | .hbm, ⟨32, _⟩ => ⟨S1x2048, .f32⟩
  | .hbm, ⟨33, _⟩ => ⟨S1x32000, .f32⟩
  | .hbm, ⟨34, _⟩ => ⟨S8x1x2048, .f32⟩
  | .hbm, ⟨35, _⟩ => ⟨S8x2048, .f32⟩
  | .hbm, ⟨36, _⟩ => ⟨S8x32000, .f32⟩
  | .hbm, ⟨37, _⟩ => ⟨S_, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8x1, .f32⟩
  | .hbm, ⟨43, _⟩ => ⟨S8x32000, .f32⟩
  | .hbm, ⟨44, _⟩ => ⟨S8x32000, .f32⟩
  | .hbm, ⟨45, _⟩ => ⟨S8x32000, .f32⟩
  | .hbm, ⟨46, _⟩ => ⟨S_, .f32⟩
  | .hbm, ⟨47, _⟩ => ⟨S8, .f32⟩
  | .hbm, ⟨48, _⟩ => ⟨S8x1, .f32⟩
  | .hbm, ⟨49, _⟩ => ⟨S8x32000, .f32⟩
  | .hbm, ⟨50, _⟩ => ⟨S8x32000, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2048x512, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S1x2048, .f32⟩
  | .local _ .vmem, ⟨13, _⟩ => ⟨S8x2048, .f32⟩
  | .local _ .vmem, ⟨14, _⟩ => ⟨S640x2048, .f32⟩
  | .local _ .vmem, ⟨15, _⟩ => ⟨S640x2048, .f32⟩
  | .local _ .vmem, ⟨16, _⟩ => ⟨S1x640, .f32⟩
  | .local _ .vmem, ⟨17, _⟩ => ⟨S1x640, .f32⟩
  | .local _ .vmem, ⟨18, _⟩ => ⟨S8x640, .f32⟩
  | .local _ .vmem, ⟨19, _⟩ => ⟨S8x640, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_cst_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_10 : BitVec 32 := 0#32
  let v27 : BitVec 1 := Scalar.cmpi .ne v26 c0_i32_10
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S640x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x512_0_1 : S8x2048.BroadcastsInDim S8x2048x512 (![0, 1] : Fin 2 → Fin S8x2048x512.rank)
  bcast_S_S8x2048x512 : S_.BroadcastsInDim S8x2048x512 (![] : Fin 0 → Fin S8x2048x512.rank)
  shapeCasts_S2048_S1x2048 : S2048.ShapeCasts S1x2048
  shapeCasts_S32000_S1x32000 : S32000.ShapeCasts S1x32000
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S256x512 : 0 < S256x512.numel
  reduces_S256x2048_S256 : S256x2048.Reduces [1] S256
  shapeCasts_S256_S256x1 : S256.ShapeCasts S256x1
  broadcasts_S256x1_S256x2048 : S256x1.Broadcasts S256x2048
  reduces_S256x2048_S2048 : S256x2048.Reduces [0] S2048
  shapeCasts_S1x2048_S2048 : S1x2048.ShapeCasts S2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  shapeCasts_S8x1x2048_S8x2048 : S8x1x2048.ShapeCasts S8x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S640x2048_S640x2048_0_0 : ∀ a, (![0, 0] : Fin 2 → Nat) a + S640x2048.size a ≤ S640x2048.size a
  h_S640x2048 : 0 < S640x2048.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S8x640 : S1x640.Broadcasts S8x640
  inb_S8x640_S8x640_0_0 : ∀ a, (![0, 0] : Fin 2 → Nat) a + S8x640.size a ≤ S8x640.size a
  h_S8x640 : 0 < S8x640.numel
  reducesTo_S8x32000_S8_d1 : S8x32000.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x32000_0_1 : S8x1.BroadcastsInDim S8x32000 (![0, 1] : Fin 2 → Fin S8x32000.rank)
  gather_S32000x512_S8x2048x1_S8x2048x512_2_0_n_n_0_2_1512_wf : GatherDims.WF S32000x512 S8x2048x1 S8x2048x512 [2] [0] [] [0] [] 2 ![1, 512]
  dot_S2048x512_S512x512_S2048x512_1_1_0_0_n_n_wf : DotDims.WF S2048x512 S512x512 S2048x512 [1] [1] [0] [0] [] []
  dot_S256x512_S2048x512_S256x2048_1_1_0_0_n_n_wf : DotDims.WF S256x512 S2048x512 S256x2048 [1] [1] [0] [0] [] []
  dot_S1x2048_S2048x512_S1x512_1_0_0_1_n_n_wf : DotDims.WF S1x2048 S2048x512 S1x512 [1] [0] [0] [1] [] []
  dot_S1x512_S2048x512_S1x2048_1_1_0_0_n_n_wf : DotDims.WF S1x512 S2048x512 S1x2048 [1] [1] [0] [0] [] []
  dot_S8x2048_S640x2048_S8x640_1_1_0_0_n_n_wf : DotDims.WF S8x2048 S640x2048 S8x640 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x512.size a ≤ S2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S8x1x2048.size a
  hwx0_6 : ∀ i : grid0.Coords, EltTy.bits .f32 = 32 ∨ (Rect.block (s := S8x1x2048) S1x1x2048.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x2048.size a ≤ S8x2048.size a
  hwx1_0 : ∀ i : grid1.Coords, EltTy.bits .f32 = 32 ∨ (Rect.block (s := S8x2048) S8x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x2048.size a ≤ S32000x2048.size a
  hwx1_1 : ∀ i : grid1.Coords, EltTy.bits .f32 = 32 ∨ (Rect.block (s := S32000x2048) S640x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x32000.size a
  hwx1_2 : ∀ i : grid1.Coords, EltTy.bits .f32 = 32 ∨ (Rect.block (s := S1x32000) S1x640.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x640.size a ≤ S8x32000.size a
  hwx1_3 : ∀ i : grid1.Coords, EltTy.bits .f32 = 32 ∨ (Rect.block (s := S8x32000) S8x640.size (cc1_transform_3 i) (hinb1_3 i)).WholeWords (EltTy.packing .f32)

variable [Facts₀]

def gather_S32000x512_S8x2048x1_S8x2048x512_2_0_n_n_0_2_1512 : GatherDims S32000x512 S8x2048x1 S8x2048x512 where
  offsetDims := [2]
  collapsedSliceDims := [0]
  operandBatchingDims := []
  startIndicesBatchingDims := []
  startIndexMap := [0]
  indexVectorDim := 2
  sliceSizes := ![1, 512]
  wf := gather_S32000x512_S8x2048x1_S8x2048x512_2_0_n_n_0_2_1512_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S1x512_S2048x512_S1x2048_1_1_0_0_n_n : DotDims S1x512 S2048x512 S1x2048 where
  lhsContracting := [1]
  rhsContracting := [1]
  lhsNonContracting := [0]
  rhsNonContracting := [0]
  lhsBatch := []
  rhsBatch := []
  wf := dot_S1x512_S2048x512_S1x2048_1_1_0_0_n_n_wf
def dot_S8x2048_S640x2048_S8x640_1_1_0_0_n_n : DotDims S8x2048 S640x2048 S8x640 where
  lhsContracting := [1]
  rhsContracting := [1]
  lhsNonContracting := [0]
  rhsNonContracting := [0]
  lhsBatch := []
  rhsBatch := []
  wf := dot_S8x2048_S640x2048_S8x640_1_1_0_0_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v4) S8x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S640x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x640.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048 : Shape := ⟨2, ![8, 2048]⟩
abbrev S32000x512 : Shape := ⟨2, ![32000, 512]⟩
abbrev S512x512 : Shape := ⟨2, ![512, 512]⟩
abbrev S2048x512 : Shape := ⟨2, ![2048, 512]⟩
abbrev S2048 : Shape := ⟨1, ![2048]⟩
abbrev S32000x2048 : Shape := ⟨2, ![32000, 2048]⟩
abbrev S32000 : Shape := ⟨1, ![32000]⟩
abbrev S_ : Shape := ⟨0, ![]⟩
abbrev S8x2048x1 : Shape := ⟨3, ![8, 2048, 1]⟩
abbrev S8x2048x512 : Shape := ⟨3, ![8, 2048, 512]⟩
abbrev S8x2048x2048 : Shape := ⟨3, ![8, 2048, 2048]⟩
abbrev S8x512 : Shape := ⟨2, ![8, 512]⟩
abbrev S512x2048 : Shape := ⟨2, ![512, 2048]⟩
abbrev S1x2048 : Shape := ⟨2, ![1, 2048]⟩
abbrev S2048x32000 : Shape := ⟨2, ![2048, 32000]⟩
abbrev S8x32000 : Shape := ⟨2, ![8, 32000]⟩
abbrev S1x32000 : Shape := ⟨2, ![1, 32000]⟩
abbrev S8 : Shape := ⟨1, ![8]⟩
abbrev S8x1 : Shape := ⟨2, ![8, 1]⟩

abbrev nBuf : Space → Nat
  | .hbm => 66
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S32000x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2048x512, .f32⟩
  | .hbm, ⟨6, _⟩ => ⟨S2048, .f32⟩
  | .hbm, ⟨7, _⟩ => ⟨S32000x2048, .f32⟩
  | .hbm, ⟨8, _⟩ => ⟨S32000, .f32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S8x2048x512, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x512, .f32⟩
  | .hbm, ⟨37, _⟩ => ⟨S_, .f32⟩
  | .hbm, ⟨38, _⟩ => ⟨S8x512, .f32⟩
  | .hbm, ⟨39, _⟩ => ⟨S512x2048, .f32⟩
  | .hbm, ⟨40, _⟩ => ⟨S8x2048, .f32⟩
  | .hbm, ⟨41, _⟩ => ⟨S1x2048, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .f32⟩
  | .hbm, ⟨47, _⟩ => ⟨S2048x32000, .f32⟩
  | .hbm, ⟨48, _⟩ => ⟨S8x32000, .f32⟩
  | .hbm, ⟨49, _⟩ => ⟨S1x32000, .f32⟩
  | .hbm, ⟨50, _⟩ => ⟨S8x32000, .f32⟩
  | .hbm, ⟨51, _⟩ => ⟨S8x32000, .f32⟩
  | .hbm, ⟨52, _⟩ => ⟨S_, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8x1, .f32⟩
  | .hbm, ⟨58, _⟩ => ⟨S8x32000, .f32⟩
  | .hbm, ⟨59, _⟩ => ⟨S8x32000, .f32⟩
  | .hbm, ⟨60, _⟩ => ⟨S8x32000, .f32⟩
  | .hbm, ⟨61, _⟩ => ⟨S_, .f32⟩
  | .hbm, ⟨62, _⟩ => ⟨S8, .f32⟩
  | .hbm, ⟨63, _⟩ => ⟨S8x1, .f32⟩
  | .hbm, ⟨64, _⟩ => ⟨S8x32000, .f32⟩
  | .hbm, ⟨65, _⟩ => ⟨S8x32000, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  reducesTo_S8x2048x2048_S8x2048_d2 : S8x2048x2048.ReducesTo [2] S8x2048
  h_S_ : 0 < S_.numel
  bcast_S8x2048x1_S8x2048x2048_0_1_2 : S8x2048x1.BroadcastsInDim S8x2048x2048 (![0, 1, 2] : Fin 3 → Fin S8x2048x2048.rank)
  reducesTo_S8x2048x512_S8x512_d1 : S8x2048x512.ReducesTo [1] S8x512
  transposes_S2048x512_S512x2048_1_0 : S2048x512.Transposes [1, 0] S512x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  transposes_S32000x2048_S2048x32000_1_0 : S32000x2048.Transposes [1, 0] S2048x32000
  bcast_S32000_S1x32000_1 : S32000.BroadcastsInDim S1x32000 (![1] : Fin 1 → Fin S1x32000.rank)
  bcast_S1x32000_S8x32000_0_1 : S1x32000.BroadcastsInDim S8x32000 (![0, 1] : Fin 2 → Fin S8x32000.rank)
  reducesTo_S8x32000_S8_d1 : S8x32000.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x32000_0_1 : S8x1.BroadcastsInDim S8x32000 (![0, 1] : Fin 2 → Fin S8x32000.rank)
  gather_S32000x512_S8x2048x1_S8x2048x512_2_0_n_n_0_2_1512_wf : GatherDims.WF S32000x512 S8x2048x1 S8x2048x512 [2] [0] [] [0] [] 2 ![1, 512]
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x512_S512x2048_S8x2048_1_0_0_1_n_n_wf : DotDims.WF S8x512 S512x2048 S8x2048 [1] [0] [0] [1] [] []
  dot_S8x2048_S2048x32000_S8x32000_1_0_0_1_n_n_wf : DotDims.WF S8x2048 S2048x32000 S8x32000 [1] [0] [0] [1] [] []

variable [Facts₀]

def gather_S32000x512_S8x2048x1_S8x2048x512_2_0_n_n_0_2_1512 : GatherDims S32000x512 S8x2048x1 S8x2048x512 where
  offsetDims := [2]
  collapsedSliceDims := [0]
  operandBatchingDims := []
  startIndicesBatchingDims := []
  startIndexMap := [0]
  indexVectorDim := 2
  sliceSizes := ![1, 512]
  wf := gather_S32000x512_S8x2048x1_S8x2048x512_2_0_n_n_0_2_1512_wf
def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x512_S512x2048_S8x2048_1_0_0_1_n_n : DotDims S8x512 S512x2048 S8x2048 where
  lhsContracting := [1]
  rhsContracting := [0]
  lhsNonContracting := [0]
  rhsNonContracting := [1]
  lhsBatch := []
  rhsBatch := []
  wf := dot_S8x512_S512x2048_S8x2048_1_0_0_1_n_n_wf
def dot_S8x2048_S2048x32000_S8x32000_1_0_0_1_n_n : DotDims S8x2048 S2048x32000 S8x32000 where
  lhsContracting := [1]
  rhsContracting := [0]
  lhsNonContracting := [0]
  rhsNonContracting := [1]
  lhsBatch := []
  rhsBatch := []
  wf := dot_S8x2048_S2048x32000_S8x32000_1_0_0_1_n_n_wf

class Facts : Prop extends Facts₀ where

variable [Facts]
-- ==== Proof.Val.Tail.lean ====
/-
  The softmax over the vocabulary axis that both programs apply on the host to their logits, as ONE function of the
  logits array: the row maximum (folded from `-∞`, then maxed with `-∞` once more), the shifted exponentials, their
  row sums, the quotient. The two programs print the same operations with the same literals, so their results are
  this function of their logits.
-/
import proofs.«411274_j4071628997014_3_alg».proof.Proof.Gen.KernelIdeal
import Idealize.ShloMosaic.PureOps.Ideal

noncomputable section

namespace Cert.KernelIdeal.Val

open Cert.KernelIdeal Cert.KernelIdeal.Facts₀ Cert.KernelIdeal.Facts Idealize.ShloMosaic

/-- The row maximum of the logits, as the host computes it. -/
def tailMax (L : FVec Ideal S8x32000 .f32) : FVec Ideal S8 .f32 :=
  maximumf (F := Ideal) (broadcastInDim S8 ![] bcast_S_S8 (constant (F := Ideal) S_ .f32 0xFF800000#32))
    (Host.reduce FloatOps.maximumf L (constant (F := Ideal) S_ .f32 0xFF800000#32) reducesTo_S8x32000_S8_d1 h_S_)

/-- The shifted exponentials. -/
def tailExp (L : FVec Ideal S8x32000 .f32) : FVec Ideal S8x32000 .f32 :=
  Host.exp (F := Ideal) (subf (F := Ideal) L (broadcastInDim S8x32000 ![0, 1] bcast_S8x1_S8x32000_0_1 (broadcastInDim S8x1 ![0] bcast_S8_S8x1_0 (tailMax L))))

/-- The softmax over the vocabulary axis. -/
def tail (L : FVec Ideal S8x32000 .f32) : FVec Ideal S8x32000 .f32 :=
  Host.divf (F := Ideal) (tailExp L)
    (broadcastInDim S8x32000 ![0, 1] bcast_S8x1_S8x32000_0_1 (broadcastInDim S8x1 ![0] bcast_S8_S8x1_0
      (Host.reduceAdd (F := Ideal) (tailExp L) (constant (F := Ideal) S_ .f32 0x00000000#32) reducesTo_S8x32000_S8_d1 h_S_)))

end Cert.KernelIdeal.Val

end
-- ==== Proof.Val.KRead.lean ====
/-
  What the fold of @main's segment boundaries holds at the buffers the value side reads, at the ideal numbers.

  @main is the gather of the embedding rows, two reshapes, region 0, one reshape, region 1, the softmax. Each host
  stretch is first read at an arbitrary valuation `X` (the buffer a stretch writes is its operations' function of the
  buffers it reads in `X`); the boundary contents `W0 … W6` of the run are then these readings, a buffer no operation
  and no region writes being what it was one boundary earlier:
  * the result `main_v16` is the softmax over the vocabulary axis (`tail`) of region 1's output array `main_v5`,
    which holds what region 1's write-backs leave;
  * region 1 reads `main_v4`, the reshape of region 0's output array `main_v3` (which holds what region 0's write-backs
    leave), the argument `main_arg7` and `main_v2`, the reshape of the argument `main_arg8`;
  * region 0 reads `main_v0`, what the gather leaves, the arguments `main_arg2 … main_arg5` and `main_v1`, the reshape
    of the argument `main_arg6`;
  * the gather reads the arguments `main_arg0` and `main_arg1` as launched.
-/
import proofs.«411274_j4071628997014_3_alg».proof.Proof.KernelIdeal.Run
import proofs.«411274_j4071628997014_3_alg».proof.Proof.Val.Tail

noncomputable section

namespace Cert.KernelIdeal.Val

open Cert.KernelIdeal Cert.KernelIdeal.Fr Cert.KernelIdeal.Facts₀ Cert.KernelIdeal.Facts
open Idealize.ShloMosaic Idealize.ShloMosaic.TcCoe

/-! ## The host stretches, read at an arbitrary valuation -/

/-- After the last stretch `main_v16` holds the softmax over the vocabulary axis of what `main_v5` held. -/
theorem after_hostOps2_main_v16 (X : Valuation τ sig (Elt Ideal)) :
    (StableHlo.after (Gen.hostOps2 (F := Ideal)) X (Proc.devRef .tc main_v16) : S8x32000.Idx → EReal)
      = tail (X (Proc.devRef .tc main_v5)) := by
  dsimp only [Gen.hostOps2]
  after_results
  unfold tail tailExp tailMax
  rfl

/-- After the reshape between the regions `main_v4` holds `main_v3`'s elements at the shape 8×2048. -/
theorem after_hostOps1_main_v4 (X : Valuation τ sig (Elt Ideal)) :
    (StableHlo.after (Gen.hostOps1 (F := Ideal)) X (Proc.devRef .tc main_v4) : S8x2048.Idx → EReal)
      = shapeCast S8x2048 (X (Proc.devRef .tc main_v3) : S8x1x2048.Idx → EReal) shapeCasts_S8x1x2048_S8x2048 := by
  dsimp only [Gen.hostOps1]
  after_results
  rfl

/-- After the two reshapes before region 0, `main_v1` holds `main_arg6`'s elements at the shape 1×2048, -/
theorem after_hostOps0_1_main_v1 (X : Valuation τ sig (Elt Ideal)) :
    (StableHlo.after (Gen.hostOps0_1 (F := Ideal)) X (Proc.devRef .tc main_v1) : S1x2048.Idx → EReal)
      = shapeCast S1x2048 (X (Proc.devRef .tc main_arg6) : S2048.Idx → EReal) shapeCasts_S2048_S1x2048 := by
  dsimp only [Gen.hostOps0_1]
  after_results
  rfl

/-- and `main_v2` holds `main_arg8`'s elements at the shape 1×32000. -/
theorem after_hostOps0_1_main_v2 (X : Valuation τ sig (Elt Ideal)) :
    (StableHlo.after (Gen.hostOps0_1 (F := Ideal)) X (Proc.devRef .tc main_v2) : S1x32000.Idx → EReal)
      = shapeCast S1x32000 (X (Proc.devRef .tc main_arg8) : S32000.Idx → EReal) shapeCasts_S32000_S1x32000 := by
  dsimp only [Gen.hostOps0_1]
  after_results
  rfl

/-! ## The boundaries' contents at the buffers the value side reads -/

variable (m : (ℓ : Loc nD τ sig) → Buf (Elt Ideal) ℓ) (ρ : Dev nD → PrngReg) (c : Dev nD)

/-- The result is the softmax over the vocabulary axis of region 1's output array at region 1's exit. -/
theorem W6_main_v16 : (W6 m ρ c (Proc.devRef .tc main_v16) : S8x32000.Idx → EReal) = tail (W5 m ρ c (Proc.devRef .tc main_v5)) :=
  after_hostOps2_main_v16 (W5 m ρ c)

/-- Region 1's output array at its exit holds what its write-backs leave (it is the array of window 3). -/
theorem W5_main_v5 : W5 m ρ c (Proc.devRef .tc main_v5) = (dat1 (F := Ideal) (V4 m ρ) c).arrAt 3 cfg1.N :=
  W5_arr m ρ c 3

/-- Region 1 enters with `main_v4` at the reshape of region 0's output array at region 0's exit, -/
theorem V4_main_v4 : (V4 m ρ c main_v4 : S8x2048.Idx → EReal)
    = shapeCast S8x2048 (W3 m ρ c (Proc.devRef .tc main_v3) : S8x1x2048.Idx → EReal) shapeCasts_S8x1x2048_S8x2048 :=
  after_hostOps1_main_v4 (W3 m ρ c)

/-- with `main_arg7` as launched: the reshape does not write it, region 0 has no window on it, no earlier operation
    writes it, -/
theorem V4_main_arg7 : V4 m ρ c main_arg7 = m ((c : Thread nD τ).loc main_arg7) :=
  (W4_of m ρ c main_arg7 (by decide)).trans <| (W3_of_ne m ρ c main_arg7 (by decide)).trans <|
    (W2_of m ρ c main_arg7 (by decide)).trans <| (W1_of m ρ c main_arg7 (by decide)).trans rfl

/-- and with `main_v2` at the reshape of `main_arg8` as launched: the second stretch writes it so, region 0 has no
    window on it, the reshape between the regions does not write it, and the gather does not write `main_arg8`. -/
theorem V4_main_v2 : (V4 m ρ c main_v2 : S1x32000.Idx → EReal)
    = shapeCast S1x32000 (m ((c : Thread nD τ).loc main_arg8) : S32000.Idx → EReal) shapeCasts_S32000_S1x32000 :=
  have h1 : V4 m ρ c main_v2 = W2 m ρ c (Proc.devRef .tc main_v2) :=
    (W4_of m ρ c main_v2 (by decide)).trans (W3_of_ne m ρ c main_v2 (by decide))
  have h2 : W1 m ρ c (Proc.devRef .tc main_arg8) = m ((c : Thread nD τ).loc main_arg8) :=
    (W1_of m ρ c main_arg8 (by decide)).trans rfl
  h1.trans ((after_hostOps0_1_main_v2 (W1 m ρ c)).trans
    (congrArg (fun x : S32000.Idx → EReal => shapeCast S1x32000 x shapeCasts_S32000_S1x32000) h2))

/-- Region 0's output array at its exit holds what its write-backs leave (it is the array of window 6). -/
theorem W3_main_v3 : W3 m ρ c (Proc.devRef .tc main_v3) = (dat0 (F := Ideal) (V2 m ρ) c).arrAt 6 cfg0.N :=
  W3_arr m ρ c 6

/-- Region 0 enters with `main_v0` as the gather leaves it: the two reshapes do not write it, -/
theorem V2_main_v0 : V2 m ρ c main_v0 = StableHlo.after (Gen.hostOps0 (F := Ideal)) (W0 m ρ c) (Proc.devRef .tc main_v0) :=
  W2_of m ρ c main_v0 (by decide)

/-- with `main_v1` at the reshape of `main_arg6` as launched, -/
theorem V2_main_v1 : (V2 m ρ c main_v1 : S1x2048.Idx → EReal)
    = shapeCast S1x2048 (m ((c : Thread nD τ).loc main_arg6) : S2048.Idx → EReal) shapeCasts_S2048_S1x2048 :=
  have h2 : W1 m ρ c (Proc.devRef .tc main_arg6) = m ((c : Thread nD τ).loc main_arg6) :=
    (W1_of m ρ c main_arg6 (by decide)).trans rfl
  (after_hostOps0_1_main_v1 (W1 m ρ c)).trans
    (congrArg (fun x : S2048.Idx → EReal => shapeCast S1x2048 x shapeCasts_S2048_S1x2048) h2)

/-- and with the weight arguments as launched: no host operation before region 0 writes them. -/
theorem V2_main_arg2 : V2 m ρ c main_arg2 = m ((c : Thread nD τ).loc main_arg2) :=
  (W2_of m ρ c main_arg2 (by decide)).trans <| (W1_of m ρ c main_arg2 (by decide)).trans rfl
theorem V2_main_arg3 : V2 m ρ c main_arg3 = m ((c : Thread nD τ).loc main_arg3) :=
  (W2_of m ρ c main_arg3 (by decide)).trans <| (W1_of m ρ c main_arg3 (by decide)).trans rfl
theorem V2_main_arg4 : V2 m ρ c main_arg4 = m ((c : Thread nD τ).loc main_arg4) :=
  (W2_of m ρ c main_arg4 (by decide)).trans <| (W1_of m ρ c main_arg4 (by decide)).trans rfl
theorem V2_main_arg5 : V2 m ρ c main_arg5 = m ((c : Thread nD τ).loc main_arg5) :=
  (W2_of m ρ c main_arg5 (by decide)).trans <| (W1_of m ρ c main_arg5 (by decide)).trans rfl

/-- The gather reads the token ids and the embedding table as launched. -/
theorem W0_main_arg0 : W0 m ρ c (Proc.devRef .tc main_arg0) = m ((c : Thread nD τ).loc main_arg0) := rfl
theorem W0_main_arg1 : W0 m ρ c (Proc.devRef .tc main_arg1) = m ((c : Thread nD τ).loc main_arg1) := rfl

end Cert.KernelIdeal.Val

end
-- ==== Proof.Val.K0Blocks.lean ====
import proofs.«411274_j4071628997014_3_alg».proof.Proof.KernelIdeal.R0
import Idealize.ShloMosaic.Lib.Pipeline.Value
import Idealize.ShloMosaic.Lib.ValueIdx

/-! # The attention region's blocks and write-backs

Region 0 runs over a grid of 8 × 8 points, point `t = 8 b + qi` being query tile `qi` of batch row `b`. At every point
the embedded tokens' window holds batch row `t / 8` of the [8, 2048, 512] array whole, and the five parameter windows
(the three projection matrices, the hidden layer's matrix and its bias row) hold their arrays whole. The [8, 1, 2048]
output is written back only at a batch row's last tile, `t % 8 = 7`, and the block written there is row `t / 8`: the
eight written blocks partition the output, index (b, 0, j) lying in the block of point `8 b + 7`. So once each written
block is known to be row `t / 8` of one function `G` of the region-entry arrays, the output array after the region
is `G`. -/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-- The printed index maps, decided over the grid: the embedded tokens' window and the output's are at block
    (`t / 8`, 0, 0) (the batch row); the five parameter windows stay at block (0, 0). -/
theorem idx_facts0 : ∀ t : Fin cfg0.N, win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 8 ∧ win0_6.index t (1 : Fin 3) = 0 ∧ win0_6.index t (2 : Fin 3) = 0 :=
  (by decide +kernel : ∀ t : Fin grid0.N, _)

section
variable (V : (c : Dev nD) → (b : Ref sig .tc) → Buf (Elt Ideal) ((c : Thread nD τ).loc b))

/-- The six arrays the region reads, as it finds them: the embedded tokens, the three projection matrices, the hidden
    layer's matrix and its bias row. -/
abbrev earr (c : Dev nD) : S8x2048x512.Idx → EReal := V c main_v0
abbrev wqarr (c : Dev nD) : S512x512.Idx → EReal := V c main_arg2
abbrev wkarr (c : Dev nD) : S512x512.Idx → EReal := V c main_arg3
abbrev wvarr (c : Dev nD) : S512x512.Idx → EReal := V c main_arg4
abbrev w1arr (c : Dev nD) : S2048x512.Idx → EReal := V c main_arg5
abbrev b1arr (c : Dev nD) : S1x2048.Idx → EReal := V c main_v1

/-! ## The block reads -/

/-- The embedded tokens' block at point `t` is batch row `t / 8` of the array. -/
theorem eblk_apply (c : Dev nD) (t : Fin cfg0.N) (s : Fin 2048) (e : Fin 512) :
    (iblk0 V c 0 t : S1x2048x512.Idx → EReal) (ix3 0 s e) = earr V c (ix3 ⟨t.val / 8, by have := t.isLt; have : cfg0.N = 64 := N_0; omega⟩ s e) := by
  obtain ⟨e0, e1, e2, -⟩ := idx_facts0 t
  unfold iblk0
  show V c main_v0 (((cfg0.win 0).blk t).view.emb (ix3 0 s e)) = V c main_v0 (ix3 _ s e)
  refine congrArg (V c main_v0) (funext fun d => Fin.ext ?_)
  match d with
  | ⟨0, _⟩ => show win0_0.index t (0 : Fin 3) * 1 + 1 * 0 = t.val / 8; omega
  | ⟨1, _⟩ => show win0_0.index t (1 : Fin 3) * 2048 + 1 * s.val = s.val; omega
  | ⟨2, _⟩ => show win0_0.index t (2 : Fin 3) * 512 + 1 * e.val = e.val; omega

/-- The query projection's block at any point is the whole matrix. -/
theorem wqblk_apply (c : Dev nD) (t : Fin cfg0.N) (a : Fin 512) (b : Fin 512) :
    (iblk0 V c 1 t : S512x512.Idx → EReal) (ix2 a b) = wqarr V c (ix2 a b) := by
  obtain ⟨-, -, -, e0, e1, -⟩ := idx_facts0 t
  unfold iblk0
  show V c main_arg2 (((cfg0.win 1).blk t).view.emb (ix2 a b)) = V c main_arg2 (ix2 a b)
  refine congrArg (V c main_arg2) (funext fun d => Fin.ext ?_)
  match d with
  | ⟨0, _⟩ => show win0_1.index t (0 : Fin 2) * 512 + 1 * a.val = a.val; omega
  | ⟨1, _⟩ => show win0_1.index t (1 : Fin 2) * 512 + 1 * b.val = b.val; omega

/-- The key projection's block at any point is the whole matrix. -/
theorem wkblk_apply (c : Dev nD) (t : Fin cfg0.N) (a : Fin 512) (b : Fin 512) :
    (iblk0 V c 2 t : S512x512.Idx → EReal) (ix2 a b) = wkarr V c (ix2 a b) := by
  obtain ⟨-, -, -, -, -, e0, e1, -⟩ := idx_facts0 t
  unfold iblk0
  show V c main_arg3 (((cfg0.win 2).blk t).view.emb (ix2 a b)) = V c main_arg3 (ix2 a b)
  refine congrArg (V c main_arg3) (funext fun d => Fin.ext ?_)
  match d with
  | ⟨0, _⟩ => show win0_2.index t (0 : Fin 2) * 512 + 1 * a.val = a.val; omega
  | ⟨1, _⟩ => show win0_2.index t (1 : Fin 2) * 512 + 1 * b.val = b.val; omega

/-- The value projection's block at any point is the whole matrix. -/
theorem wvblk_apply (c : Dev nD) (t : Fin cfg0.N) (a : Fin 512) (b : Fin 512) :
    (iblk0 V c 3 t : S512x512.Idx → EReal) (ix2 a b) = wvarr V c (ix2 a b) := by
  obtain ⟨-, -, -, -, -, -, -, e0, e1, -⟩ := idx_facts0 t
  unfold iblk0
  show V c main_arg4 (((cfg0.win 3).blk t).view.emb (ix2 a b)) = V c main_arg4 (ix2 a b)
  refine congrArg (V c main_arg4) (funext fun d => Fin.ext ?_)
  match d with
  | ⟨0, _⟩ => show win0_3.index t (0 : Fin 2) * 512 + 1 * a.val = a.val; omega
  | ⟨1, _⟩ => show win0_3.index t (1 : Fin 2) * 512 + 1 * b.val = b.val; omega

/-- The hidden layer's matrix's block at any point is the whole matrix. -/
theorem w1blk_apply (c : Dev nD) (t : Fin cfg0.N) (a : Fin 2048) (b : Fin 512) :
    (iblk0 V c 4 t : S2048x512.Idx → EReal) (ix2 a b) = w1arr V c (ix2 a b) := by
  obtain ⟨-, -, -, -, -, -, -, -, -, e0, e1, -⟩ := idx_facts0 t
  unfold iblk0
  show V c main_arg5 (((cfg0.win 4).blk t).view.emb (ix2 a b)) = V c main_arg5 (ix2 a b)
  refine congrArg (V c main_arg5) (funext fun d => Fin.ext ?_)
  match d with
  | ⟨0, _⟩ => show win0_4.index t (0 : Fin 2) * 2048 + 1 * a.val = a.val; omega
  | ⟨1, _⟩ => show win0_4.index t (1 : Fin 2) * 512 + 1 * b.val = b.val; omega

/-- The hidden layer's bias row's block at any point is the whole row. -/
theorem b1blk_apply (c : Dev nD) (t : Fin cfg0.N) (j : Fin 2048) :
    (iblk0 V c 5 t : S1x2048.Idx → EReal) (ix2 0 j) = b1arr V c (ix2 0 j) := by
  obtain ⟨-, -, -, -, -, -, -, -, -, -, -, e0, e1, -⟩ := idx_facts0 t
  unfold iblk0
  show V c main_v1 (((cfg0.win 5).blk t).view.emb (ix2 0 j)) = V c main_v1 (ix2 0 j)
  refine congrArg (V c main_v1) (funext fun d => Fin.ext ?_)
  match d with
  | ⟨0, _⟩ => show win0_5.index t (0 : Fin 2) * 1 + 1 * 0 = 0; omega
  | ⟨1, _⟩ => show win0_5.index t (1 : Fin 2) * 2048 + 1 * j.val = j.val; omega

/-! ## From the written blocks to the array -/

/-- An index of the output array is in point `t`'s block iff each coordinate is in the block's range on its axis. -/
theorem mem_blk0_6 (t : Fin cfg0.N) (i : S8x1x2048.Idx) :
    i ∈ ((cfg0.win 6).blk t).view.set ↔ ∀ a : Fin 3, win0_6.index t a * S1x1x2048.size a ≤ (i a).val ∧ (i a).val < win0_6.index t a * S1x1x2048.size a + S1x1x2048.size a := by
  show i ∈ ((View.whole main_v3).slice (win0_6.rect t)).set ↔ _
  rw [View.set_slice_whole, Rect.mem_set_unit]
  exact Iff.rfl

/-- The written blocks cover the output: index (b, 0, j) lies in the block of point `8 b + 7`, the last tile of batch
    row `b`, which is a point that writes back. -/
theorem cover0_6_arr (i : S8x1x2048.Idx) :
    ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 2048 := (i 2).isLt
  have hN : cfg0.N = 64 := N_0
  let t : Fin cfg0.N := ⟨8 * (i 0).val + 7, by rw [hN]; omega⟩
  have ht : t.val = 8 * (i 0).val + 7 := rfl
  obtain ⟨-, -, -, -, -, -, -, -, -, -, -, -, -, e0, e1, e2⟩ := idx_facts0 t
  refine ⟨t, (flush0_6 t).mpr (by omega), ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 2048 ≤ (i 2).val ∧ (i 2).val < win0_6.index t (2 : Fin 3) * 2048 + 2048; omega

/-- WHAT A WRITING POINT WRITES BACK is its block of `G`, once the output's staging buffer after the body there is
    known to hold batch row `t / 8` of `G`. -/
theorem flushed0_eq (c : Dev nD) (G : S8x1x2048.Idx → EReal)
    (hG : ∀ (t : Fin cfg0.N) (h7 : t.val % 8 = 7) (j : Fin 2048), ((outsAt0 V c t.val t.isLt).1 : S1x1x2048.Idx → EReal) (ix3 0 0 j) = G (ix3 ⟨t.val / 8, by have := t.isLt; have : cfg0.N = 64 := N_0; omega⟩ 0 j))
    (t : Fin cfg0.N) (hf : (cfg0.win 6).flush t = true) :
    (dat0 (F := Ideal) V c).flushed 6 t = ((cfg0.win 6).blk t).view.read (Elt Ideal) G := by
  have h7 : t.val % 8 = 7 := (flush0_6 t).mp hf
  show (cfg0.win 6).cut (grid0.coords t) ((dat0 (F := Ideal) V c).after 6 t) = _
  rw [after0_6]
  obtain ⟨-, -, -, -, -, -, -, -, -, -, -, -, -, e0, e1, e2⟩ := idx_facts0 t
  refine funext fun (y : S1x1x2048.Idx) => ?_
  obtain ⟨j, rfl⟩ : ∃ j : Fin 2048, y = ix3 0 0 j :=
    ⟨y 2, funext fun a => Fin.ext (by
      match a with
      | ⟨0, _⟩ => show (y 0).val = 0; have : (y 0).val < 1 := (y 0).isLt; omega
      | ⟨1, _⟩ => show (y 1).val = 0; have : (y 1).val < 1 := (y 1).isLt; omega
      | ⟨2, _⟩ => rfl)⟩
  refine (hG t h7 j).trans ?_
  show G (ix3 _ 0 j) = G (((cfg0.win 6).blk t).view.emb (ix3 0 0 j))
  refine congrArg G (funext fun a => Fin.ext ?_)
  match a with
  | ⟨0, _⟩ => show t.val / 8 = win0_6.index t (0 : Fin 3) * 1 + 1 * 0; omega
  | ⟨1, _⟩ => show 0 = win0_6.index t (1 : Fin 3) * 1 + 1 * 0; omega
  | ⟨2, _⟩ => show j.val = win0_6.index t (2 : Fin 3) * 2048 + 1 * j.val; omega

/-- THE OUTPUT ARRAY after the region is `G`, once at every point that writes back (the last tile of a batch row) the
    output's staging buffer after the body holds batch row `t / 8` of `G`. -/
theorem arr0_of_points (c : Dev nD) (G : S8x1x2048.Idx → EReal)
    (hG : ∀ (t : Fin cfg0.N) (h7 : t.val % 8 = 7) (j : Fin 2048), ((outsAt0 V c t.val t.isLt).1 : S1x1x2048.Idx → EReal) (ix3 0 0 j) = G (ix3 ⟨t.val / 8, by have := t.isLt; have : cfg0.N = 64 := N_0; omega⟩ 0 j)) :
    ((dat0 (F := Ideal) V c).arrAt 6 cfg0.N : S8x1x2048.Idx → EReal) = G :=
  (dat0 (F := Ideal) V c).arrAt_eq_of_cover 6 G (fun t hf => flushed0_eq V c G hG t hf) cover0_6_arr

end

end Cert.KernelIdeal.Val

end
-- ==== Proof.Val.K0Pieces.lean ====
import proofs.«411274_j4071628997014_3_alg».proof.Proof.KernelIdeal.R0
import Idealize.ShloMosaic.Lib.Pipeline.Value
import Idealize.ShloMosaic.Lib.ValueIdx
import Idealize.ShloMosaic.Lib.Tactic

/-! # What the attention kernel's three cases leave in the carried scratch and in the output, as values

Region 0's kernel keeps four scratch buffers across the eight query tiles of a batch row: the projections q, k, v of the
row's 2048 embedded tokens and the running column sum of the attention weights. Each case of the body stores whole buffers
only, so what a case leaves in a buffer is the value of its last store there, over the values its loads read:

* at the first tile (case A) q, k, v are the three projections of the row's block, and the column sum is the first tile's
  update of the zero row;
* at a middle tile (case B) the column sum is the tile's update of the sum the tile before left, the projections unchanged;
* at the last tile (case C) likewise, and the output block is the hidden row computed from the final column sum.

The one load that is not of a whole buffer is the query tile: rows `256 qi … 256 qi + 255` of q. -/

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-- The zero offsets of a rank-2 buffer, as a constant function. -/
theorem hz2 : (![0, 0] : Fin 2 → Nat) = fun _ => 0 := funext fun a => by fin_cases a <;> rfl
/-- The zero offsets of a rank-3 buffer, as a constant function. -/
theorem hz3 : (![0, 0, 0] : Fin 3 → Nat) = fun _ => 0 := funext fun a => by fin_cases a <;> rfl

/-! ## Case A: the first query tile of a batch row -/

/-- Case A leaves in scratch 0 the projection q of the row's block: `k0_pay2` of the block and the query weights. -/
theorem sout0_A_0_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : cond0_0 i) (hc1 : ¬cond0_1 i)
    (x0 : Vec F S1x2048x512 .f32) (x1 : Vec F S512x512 .f32) (x2 : Vec F S512x512 .f32) (x3 : Vec F S512x512 .f32) (x4 : Vec F S2048x512 .f32) (x5 : Vec F S1x2048 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_run_names
  rw [View.canon_unit_zero hz2]
  simp only [View.readAt_eq_ld, harg2.read_unread, harg3.read_unread, View.ld_unit_zero (S := S1x2048x512) hz3, View.ld_unit_zero (S := S512x512) hz2]

/-- Case A leaves in scratch 1 the projection k of the row's block: `k0_pay3` of the block and the key weights. -/
theorem sout0_A_1_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : cond0_0 i) (hc1 : ¬cond0_1 i)
    (x0 : Vec F S1x2048x512 .f32) (x1 : Vec F S512x512 .f32) (x2 : Vec F S512x512 .f32) (x3 : Vec F S512x512 .f32) (x4 : Vec F S2048x512 .f32) (x5 : Vec F S1x2048 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 = k0_pay3 x0 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_run_names
  rw [View.canon_unit_zero hz2]
  simp only [View.readAt_eq_ld, harg2.read_unread, harg4.read_unread, View.ld_unit_zero (S := S1x2048x512) hz3, View.ld_unit_zero (S := S512x512) hz2]

/-- Case A leaves in scratch 2 the projection v of the row's block: `k0_pay4` of the block and the value weights. -/
theorem sout0_A_2_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : cond0_0 i) (hc1 : ¬cond0_1 i)
    (x0 : Vec F S1x2048x512 .f32) (x1 : Vec F S512x512 .f32) (x2 : Vec F S512x512 .f32) (x3 : Vec F S512x512 .f32) (x4 : Vec F S2048x512 .f32) (x5 : Vec F S1x2048 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 = k0_pay4 x0 x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_run_names
  rw [View.canon_unit_zero hz2]
  simp only [View.readAt_eq_ld, harg2.read_unread, harg5.read_unread, View.ld_unit_zero (S := S1x2048x512) hz3, View.ld_unit_zero (S := S512x512) hz2]

/-- Case A leaves in scratch 3 the first tile's update (`k0_pay6`) of the zero row (`k0_pay5`): over the query tile of the
    projection q just stored, the projection k just stored, and the zero row read back. -/
theorem sout0_A_3_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : cond0_0 i) (hc1 : ¬cond0_1 i)
    (x0 : Vec F S1x2048x512 .f32) (x1 : Vec F S512x512 .f32) (x2 : Vec F S512x512 .f32) (x3 : Vec F S512x512 .f32) (x4 : Vec F S2048x512 .f32) (x5 : Vec F S1x2048 .f32) :
    sout0_A_3 c i arg2 harg2 arg3 harg3 arg4 harg4 arg5 harg5 arg6 harg6 arg7 harg7 arg8 harg8 arg9 harg9 arg10 harg10 arg11 harg11 arg12 harg12 hc0 hc1 x0 x1 x2 x3 x4 x5
      = k0_pay6 (View.ld (k0_pay2 x0 x1) (Rect.unit (s := S2048x512) (k0_off1 i) S256x512.size (k0_off1_inb i))) (k0_pay3 x0 x2) (k0_pay5 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_run_names
  rw [View.canon_cons_unit_zero (S := S1x2048) hz2]
  simp only [View.readAt_eq_ld, View.read_writes_junk_eq_canon, View.canon_unit_zero (S := S2048x512) hz2,
    View.readCov_unit_zero (S := S2048x512) _ hz2, View.readCov_unit_zero (S := S1x2048) _ hz2,
    harg2.read_unread, harg3.read_unread, harg4.read_unread, View.ld_unit_zero (S := S1x2048x512) hz3, View.ld_unit_zero (S := S512x512) hz2]

/-! ## Case B: a middle query tile -/

/-- Case B leaves in scratch 3 the tile's update of the column sum the tile before left: `k0_pay6` over the query tile of the
    carried q, the carried k, and the carried sum. -/
theorem sout0_B_3_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : ¬cond0_0 i) (hc1 : ¬cond0_1 i)
    (x0 : Vec F S1x2048x512 .f32) (x1 : Vec F S512x512 .f32) (x2 : Vec F S512x512 .f32) (x3 : Vec F S512x512 .f32) (x4 : Vec F S2048x512 .f32) (x5 : Vec F S1x2048 .f32)
    (xs0 : Vec F S2048x512 .f32) (xs1 : Vec F S2048x512 .f32) (xs2 : Vec F S2048x512 .f32) (xs3 : Vec F S1x2048 .f32) :
    sout0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3
      = k0_pay6 (View.ld xs0 (Rect.unit (s := S2048x512) (k0_off1 i) S256x512.size (k0_off1_inb i))) xs1 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_B
  dsimp only
  sl_unfold_run_names
  rw [View.canon_unit_zero hz2]
  simp only [View.readAt_eq_ld, harg9.read_unread, harg10.read_unread, harg12.read_unread, View.ld_unit_zero (S := S2048x512) hz2, View.ld_unit_zero (S := S1x2048) hz2]

/-! ## Case C: the last query tile of a batch row -/

/-- Case C leaves in scratch 3 the same update as a middle tile. -/
theorem sout0_C_3_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : ¬cond0_0 i) (hc1 : cond0_1 i)
    (x0 : Vec F S1x2048x512 .f32) (x1 : Vec F S512x512 .f32) (x2 : Vec F S512x512 .f32) (x3 : Vec F S512x512 .f32) (x4 : Vec F S2048x512 .f32) (x5 : Vec F S1x2048 .f32)
    (xs0 : Vec F S2048x512 .f32) (xs1 : Vec F S2048x512 .f32) (xs2 : Vec F S2048x512 .f32) (xs3 : Vec F S1x2048 .f32) :
    sout0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3
      = k0_pay6 (View.ld xs0 (Rect.unit (s := S2048x512) (k0_off1 i) S256x512.size (k0_off1_inb i))) xs1 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_run_names
  rw [View.canon_unit_zero hz2]
  simp only [View.readAt_eq_ld, harg9.read_unread, harg10.read_unread, harg12.read_unread, View.ld_unit_zero (S := S2048x512) hz2, View.ld_unit_zero (S := S1x2048) hz2]

/-- Case C leaves in the output block the hidden row (`k0_pay7`) of the final column sum (the update just stored, read back),
    the carried projection v, and the feed-forward weights and bias. -/
theorem out0_C_6_eq (c : Dev nD) (i : grid0.Coords) (arg2 : Memref sig .tc .vmem S1x2048x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x512 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S1x2048 .f32) (harg12 : arg12.IsWhole) (hc0 : ¬cond0_0 i) (hc1 : cond0_1 i)
    (x0 : Vec F S1x2048x512 .f32) (x1 : Vec F S512x512 .f32) (x2 : Vec F S512x512 .f32) (x3 : Vec F S512x512 .f32) (x4 : Vec F S2048x512 .f32) (x5 : Vec F S1x2048 .f32)
    (xs0 : Vec F S2048x512 .f32) (xs1 : Vec F S2048x512 .f32) (xs2 : Vec F S2048x512 .f32) (xs3 : Vec F S1x2048 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3
      = k0_pay7 (k0_pay6 (View.ld xs0 (Rect.unit (s := S2048x512) (k0_off1 i) S256x512.size (k0_off1_inb i))) xs1 xs3) xs2 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3)]
  unfold kernelRun0_C
  dsimp only
  sl_unfold_run_names
  rw [View.canon_unit_zero hz3]
  simp only [View.readAt_eq_ld, View.readCov_unit_zero (S := S1x2048) _ hz2, harg6.read_unread, harg7.read_unread, harg9.read_unread, harg10.read_unread, harg11.read_unread, harg12.read_unread,
    View.ld_unit_zero (S := S2048x512) hz2, View.ld_unit_zero (S := S1x2048) hz2]

/-! ## The query tile at an index -/

/-- A row of the query tile lies inside the projection: `256 qi + r < 2048` for `qi < 8`, `r < 256`. -/
theorem qrow_lt (i : grid0.Coords) (r : Fin 256) : 256 * (i 1).val + r.val < 2048 := by
  have h : (i 1).val < 8 := (i 1).isLt
  omega

/-- Row `r` of query tile `qi` is row `256 qi + r` of the projection. -/
theorem qtile_apply (q : Vec F S2048x512 .f32) (i : grid0.Coords) (r : Fin 256) (d : Fin 512) :
    (View.ld q (Rect.unit (s := S2048x512) (k0_off1 i) S256x512.size (k0_off1_inb i))) (ix2 r d) = q (ix2 ⟨256 * (i 1).val + r.val, qrow_lt i r⟩ d) := by
  refine congrArg q (funext fun a => ?_)
  match a with
  | ⟨0, _⟩ =>
    exact Fin.ext (show k0_off1 i 0 + 1 * r.val = 256 * (i 1).val + r.val by
      rw [k0_off1_eq]; show 256 * (i 1).val + 1 * r.val = 256 * (i 1).val + r.val; rw [Nat.one_mul])
  | ⟨1, _⟩ =>
    exact Fin.ext (show k0_off1 i 1 + 1 * d.val = d.val by
      rw [k0_off1_eq]; show 0 + 1 * d.val = d.val; rw [Nat.one_mul, Nat.zero_add])

end Cert.KernelIdeal.Val

end
-- ==== Proof.Val.Spec.lean ====
/-
  The mathematics both programs compute, over plain index types, and the one law that joins them.

  Inputs: the gathered embeddings `E b s e` (batch row, position, feature), the three projection matrices, the head's
  two linear layers. Both programs form q, k, v = E·Wᵀ, the scores q·kᵀ, the row softmax `a`, and then
  `Σ_s Σ_s' a b s s' · v b s' d`: the reference sums over the query axis `s` AFTER the product with v, the kernel sums the
  softmax's columns first, query tile by query tile (eight tiles of 256 rows, accumulated from zero), and multiplies the
  column sums with v. On the extended reals the two agree when every softmax weight is nonnegative (a sum of nonnegative
  terms distributes over a product), which holds as soon as the scores are real: then each row's maximum is real, the
  shifted exponentials are positive reals, and the row's denominator is positive.
-/
import Idealize.ShloMosaic.PureOps.Ideal
import Idealize.ShloMosaic.PureOps.Ideal.Laws
import Idealize.ShloMosaic.Lib.ValueIdx
import Mathlib.Data.EReal.Operations
import Mathlib.Data.EReal.Inv
import Mathlib.Algebra.BigOperators.Fin
import Mathlib.Algebra.Order.BigOperators.Group.Finset

noncomputable section

namespace Cert.KernelIdeal.Val.Spec

open Idealize.ShloMosaic

/-- A linear projection of the embeddings: `Σ_e E b s e · W d e`. -/
def proj (E : Fin 8 → Fin 2048 → Fin 512 → EReal) (W : Fin 512 → Fin 512 → EReal) : Fin 8 → Fin 2048 → Fin 512 → EReal :=
  fun b s d => ∑ e : Fin 512, E b s e * W d e

/-- The attention scores `Σ_d q b s d · k b s' d`. -/
def score (q k : Fin 8 → Fin 2048 → Fin 512 → EReal) : Fin 8 → Fin 2048 → Fin 2048 → EReal :=
  fun b s s' => ∑ d : Fin 512, q b s d * k b s' d

/-- A row's maximum, folded from `-∞`. -/
def rowMax (sc : Fin 8 → Fin 2048 → Fin 2048 → EReal) : Fin 8 → Fin 2048 → EReal :=
  fun b s => (Finset.univ : Finset (Fin 2048)).fold max (⊥ : EReal) (fun s' => sc b s s')

/-- The shifted exponentials. -/
def pexp (sc : Fin 8 → Fin 2048 → Fin 2048 → EReal) : Fin 8 → Fin 2048 → Fin 2048 → EReal :=
  fun b s s' => Ideal.exp (sc b s s' - rowMax sc b s)

/-- A row's denominator. -/
def den (sc : Fin 8 → Fin 2048 → Fin 2048 → EReal) : Fin 8 → Fin 2048 → EReal :=
  fun b s => ∑ s' : Fin 2048, pexp sc b s s'

/-- The row softmax. -/
def attn (sc : Fin 8 → Fin 2048 → Fin 2048 → EReal) : Fin 8 → Fin 2048 → Fin 2048 → EReal :=
  fun b s s' => Ideal.div (pexp sc b s s') (den sc b s)

/-- The softmax of one row of `n` scores, at position `t`. -/
def smax {n : Nat} (row : Fin n → EReal) (t : Fin n) : EReal :=
  Ideal.div (Ideal.exp (row t - (Finset.univ : Finset (Fin n)).fold max (⊥ : EReal) row))
    (∑ u : Fin n, Ideal.exp (row u - (Finset.univ : Finset (Fin n)).fold max (⊥ : EReal) row))

theorem attn_eq_smax (sc : Fin 8 → Fin 2048 → Fin 2048 → EReal) (b : Fin 8) (s s' : Fin 2048) :
    attn sc b s s' = smax (fun t => sc b s t) s' := rfl

/-- The reference's order: for each query the weighted sum of v, then the sum over the queries (from zero). -/
def voutR (a : Fin 8 → Fin 2048 → Fin 2048 → EReal) (v : Fin 8 → Fin 2048 → Fin 512 → EReal) : Fin 8 → Fin 512 → EReal :=
  fun b d => 0 + ∑ s : Fin 2048, ∑ s' : Fin 2048, a b s s' * v b s' d

/-- Row `r` of query tile `i`. -/
def tileRow (i : Fin 8) (r : Fin 256) : Fin 2048 := ⟨256 * i.val + r.val, by have := i.isLt; have := r.isLt; omega⟩

/-- One query tile's column sums. -/
def tileSum (a : Fin 8 → Fin 2048 → Fin 2048 → EReal) (b : Fin 8) (i : Fin 8) : Fin 2048 → EReal :=
  fun s' => ∑ r : Fin 256, a b (tileRow i r) s'

/-- The kernel's running column sum after query tile `n` (`n < 8`): from zero, one tile's column sums added per step. -/
def colAcc (a : Fin 8 → Fin 2048 → Fin 2048 → EReal) (b : Fin 8) : (n : ℕ) → n < 8 → Fin 2048 → EReal
  | 0, h => fun s' => 0 + tileSum a b ⟨0, h⟩ s'
  | n + 1, h => fun s' => colAcc a b n (Nat.lt_of_succ_lt h) s' + tileSum a b ⟨n + 1, h⟩ s'

/-- The kernel's order: the column sums of the softmax times v. -/
def voutK (a : Fin 8 → Fin 2048 → Fin 2048 → EReal) (v : Fin 8 → Fin 2048 → Fin 512 → EReal) : Fin 8 → Fin 512 → EReal :=
  fun b d => ∑ s' : Fin 2048, colAcc a b 7 (by decide) s' * v b s' d

/-- The hidden layer: `max (Σ_d vo b d · W1 j d + b1 j) 0`. -/
def hid (vo : Fin 8 → Fin 512 → EReal) (W1 : Fin 2048 → Fin 512 → EReal) (b1 : Fin 2048 → EReal) : Fin 8 → Fin 2048 → EReal :=
  fun b j => max ((∑ d : Fin 512, vo b d * W1 j d) + b1 j) 0

/-- The logits: `Σ_j h b j · W2 n j + b2 n`. -/
def logit (h : Fin 8 → Fin 2048 → EReal) (W2 : Fin 32000 → Fin 2048 → EReal) (b2 : Fin 32000 → EReal) : Fin 8 → Fin 32000 → EReal :=
  fun b n => (∑ j : Fin 2048, h b j * W2 n j) + b2 n

/-- The reference's logits from the inputs. -/
def logitsR (E : Fin 8 → Fin 2048 → Fin 512 → EReal) (Wq Wk Wv : Fin 512 → Fin 512 → EReal) (W1 : Fin 2048 → Fin 512 → EReal)
    (b1 : Fin 2048 → EReal) (W2 : Fin 32000 → Fin 2048 → EReal) (b2 : Fin 32000 → EReal) : Fin 8 → Fin 32000 → EReal :=
  logit (hid (voutR (attn (score (proj E Wq) (proj E Wk))) (proj E Wv)) W1 b1) W2 b2

/-- The kernel's hidden layer from the inputs (what its first region leaves). -/
def hidK (E : Fin 8 → Fin 2048 → Fin 512 → EReal) (Wq Wk Wv : Fin 512 → Fin 512 → EReal) (W1 : Fin 2048 → Fin 512 → EReal)
    (b1 : Fin 2048 → EReal) : Fin 8 → Fin 2048 → EReal :=
  hid (voutK (attn (score (proj E Wq) (proj E Wk))) (proj E Wv)) W1 b1

/-- The kernel's logits from the inputs. -/
def logitsK (E : Fin 8 → Fin 2048 → Fin 512 → EReal) (Wq Wk Wv : Fin 512 → Fin 512 → EReal) (W1 : Fin 2048 → Fin 512 → EReal)
    (b1 : Fin 2048 → EReal) (W2 : Fin 32000 → Fin 2048 → EReal) (b2 : Fin 32000 → EReal) : Fin 8 → Fin 32000 → EReal :=
  logit (hidK E Wq Wk Wv W1 b1) W2 b2

/-! ## Arrays as functions of their coordinates -/

open ValueIdx in
/-- A rank-3 array read at its three coordinates. -/
def of3 {n0 n1 n2 : Nat} (x : (⟨3, ![n0, n1, n2]⟩ : Shape).Idx → EReal) : Fin n0 → Fin n1 → Fin n2 → EReal := fun a b c => x (ix3 a b c)
open ValueIdx in
/-- A rank-2 array read at its two coordinates. -/
def of2 {n0 n1 : Nat} (x : (⟨2, ![n0, n1]⟩ : Shape).Idx → EReal) : Fin n0 → Fin n1 → EReal := fun a b => x (ix2 a b)
open ValueIdx in
/-- A rank-1 array read at its coordinate. -/
def of1 {n : Nat} (x : (⟨1, ![n]⟩ : Shape).Idx → EReal) : Fin n → EReal := fun a => x (ix1 a)

/-! ## Real-valued entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isReal_proj {E : Fin 8 → Fin 2048 → Fin 512 → EReal} {W : Fin 512 → Fin 512 → EReal}
    (hE : ∀ b s e, IsReal (E b s e)) (hW : ∀ d e, IsReal (W d e)) (b : Fin 8) (s : Fin 2048) (d : Fin 512) : IsReal (proj E W b s d) :=
  IsReal.sum _ _ fun e _ => (hE b s e).mul (hW d e)

theorem isReal_score {q k : Fin 8 → Fin 2048 → Fin 512 → EReal} (hq : ∀ b s d, IsReal (q b s d)) (hk : ∀ b s d, IsReal (k b s d))
    (b : Fin 8) (s s' : Fin 2048) : IsReal (score q k b s s') :=
  IsReal.sum _ _ fun d _ => (hq b s d).mul (hk b s' d)

end Cert.KernelIdeal.Val.Spec

end
-- ==== Proof.Val.K0Pay.lean ====
import proofs.«411274_j4071628997014_3_alg».proof.Proof.Gen.KernelIdeal.Skeleton
import proofs.«411274_j4071628997014_3_alg».proof.Proof.Val.Spec
import Idealize.ShloMosaic.PureOps.Ideal.Laws
import Idealize.ShloMosaic.Lib.ValueIdx
import Idealize.ShloMosaic.Lib.Pipeline.Value
import Idealize.ShloMosaic.Lib.ValueLayout
import Mathlib.Data.Finset.Fold

/-! # The attention kernel's stored values, read at an index

The attention kernel stores seven computed values. Each is read here at one index, written by its coordinates, as the
arithmetic of the values the kernel loaded before it, over the extended reals:

* the three projections (queries, keys, values): entry (s, d) is `∑ e, x (0, s, e) · w (d, e)`, the embedding block's row `s`
  against the weight's row `d` (both operands are contracted on their last axis);
* the reset column sum: `0` at every column;
* the accumulated column sum: at column `s'`, what was there plus the sum, over the 256 query rows of the tile, of the softmax of
  that row's scores at `s'`. A row's scores are `∑ d, q (r, d) · k (t, d)`; its softmax subtracts the row's maximum (a fold of
  `max` from `-∞`), exponentiates, and divides by the row's sum of exponentials;
* the hidden row: at `j`, `max (∑ d, (∑ s', cs (0, s') · v (s', d)) · w1 (j, d) + b1 (0, j)) 0`.

Every step is one small fact about one operation read at an index: a matrix product is the sum over the contraction position of
the operands' products; a reduction over one axis is the sum (or the fold of `max`) over that axis's coordinates; a shape cast
reads the operand at the index with the same row-major position; a broadcast reads the operand's unit axes at `0`. The sums
are the kernel's own, term by term and in its order: nothing is rearranged. -/

set_option maxRecDepth 16384

noncomputable section

namespace Cert.KernelIdeal.Val

open Cert.KernelIdeal Cert.KernelIdeal.Gen Idealize.ShloMosaic Idealize.ShloMosaic.ValueIdx

/-! ## The projections: a [2048, 512] block times a [512, 512] weight, both contracted on their last axis -/

/-- On the left operand's row axis the product's index is the output's row. -/
theorem lhs_proj_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- On the left operand's contracted axis it is the contraction position. -/
theorem lhs_proj_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
/-- On the right operand's row axis (the weight's output feature) it is the output's column. -/
theorem rhs_proj_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- On the right operand's contracted axis it is the contraction position. -/
theorem rhs_proj_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product of a [2048, 512] block with a [512, 512] weight, into zero: entry (s, d) is the dot product of the block's
    row s with the weight's row d. -/
theorem proj_matmul_apply (x : FVec Ideal S2048x512 .f32) (w : FVec Ideal S512x512 .f32) (s : Fin 2048) (d : Fin 512) :
    matmul dot_S2048x512_S512x512_S2048x512_1_1_0_0_n_n (some .fp32) x w (constant (F := Ideal) S2048x512 .f32 0x00000000#32) (ix2 s d)
      = ∑ e : Fin 512, x (ix2 s e) * w (ix2 d e) := by
  simp only [matmul]
  rw [Ideal.matmul_constant_zero_apply, ← Equiv.sum_comp (ValueIdx.contrEquiv1 dot_S2048x512_S512x512_S2048x512_1_1_0_0_n_n 512 rfl rfl).symm]
  refine Finset.sum_congr rfl fun e _ => ?_
  have hk := ValueIdx.contrEquiv1_symm_val dot_S2048x512_S512x512_S2048x512_1_1_0_0_n_n 512 rfl rfl e
  have el : dot_S2048x512_S512x512_S2048x512_1_1_0_0_n_n.lhsIdx (ix2 s d) ((ValueIdx.contrEquiv1 dot_S2048x512_S512x512_S2048x512_1_1_0_0_n_n 512 rfl rfl).symm e) = ix2 s e := funext fun a => Fin.ext (by
    match a with
    | ⟨0, _⟩ => exact lhs_proj_0 _ _
    | ⟨1, _⟩ => exact (lhs_proj_1 _ _).trans hk)
  have er : dot_S2048x512_S512x512_S2048x512_1_1_0_0_n_n.rhsIdx (ix2 s d) ((ValueIdx.contrEquiv1 dot_S2048x512_S512x512_S2048x512_1_1_0_0_n_n 512 rfl rfl).symm e) = ix2 d e := funext fun a => Fin.ext (by
    match a with
    | ⟨0, _⟩ => exact rhs_proj_0 _ _
    | ⟨1, _⟩ => exact (rhs_proj_1 _ _).trans hk)
  rw [el, er]

/-- The embedding block [1, 2048, 512] viewed [2048, 512] reads, at (s, e), the block at (0, s, e). -/
theorem pay1_apply (x0 : Vec Ideal S1x2048x512 .f32) (s : Fin 2048) (e : Fin 512) :
    k0_pay1 (F := Ideal) x0 (ix2 s e) = x0 (ix3 0 s e) := by
  unfold k0_pay1
  exact shapeCast_1ab_ab_apply x0 shapeCasts_S1x2048x512_S2048x512 s e

/-- THE STORED QUERIES at an index: entry (s, d) is the embedding row s against the weight's row d. -/
theorem pay2_apply (x0 : Vec Ideal S1x2048x512 .f32) (w : Vec Ideal S512x512 .f32) (s : Fin 2048) (d : Fin 512) :
    k0_pay2 (F := Ideal) x0 w (ix2 s d) = ∑ e : Fin 512, x0 (ix3 0 s e) * w (ix2 d e) := by
  unfold k0_pay2
  rw [shapeCast_self, proj_matmul_apply]
  exact Finset.sum_congr rfl fun e _ => by rw [pay1_apply]

/-- THE STORED KEYS at an index: the same product with the keys' weight. -/
theorem pay3_apply (x0 : Vec Ideal S1x2048x512 .f32) (w : Vec Ideal S512x512 .f32) (s : Fin 2048) (d : Fin 512) :
    k0_pay3 (F := Ideal) x0 w (ix2 s d) = ∑ e : Fin 512, x0 (ix3 0 s e) * w (ix2 d e) := by
  unfold k0_pay3
  rw [shapeCast_self, proj_matmul_apply]
  exact Finset.sum_congr rfl fun e _ => by rw [pay1_apply]

/-- THE STORED VALUES at an index: the same product with the values' weight. -/
theorem pay4_apply (x0 : Vec Ideal S1x2048x512 .f32) (w : Vec Ideal S512x512 .f32) (s : Fin 2048) (d : Fin 512) :
    k0_pay4 (F := Ideal) x0 w (ix2 s d) = ∑ e : Fin 512, x0 (ix3 0 s e) * w (ix2 d e) := by
  unfold k0_pay4
  rw [shapeCast_self, proj_matmul_apply]
  exact Finset.sum_congr rfl fun e _ => by rw [pay1_apply]

/-! ## The reset column sum -/

/-- THE RESET COLUMN SUM at an index: zero at every column. -/
theorem pay5_apply (s' : Fin 2048) : k0_pay5 (F := Ideal) (ix2 0 s') = 0 := by
  unfold k0_pay5
  rw [shapeCast_self, broadcast_apply]
  exact Ideal.ofBits_zero_f32

/-! ## The accumulated column sum: one query tile's scores, their row softmax, its column sums -/

/-- On the query tile's row axis the product's index is the output's row. -/
theorem lhs_score_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
/-- On the query tile's contracted axis it is the contraction position. -/
theorem lhs_score_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
/-- On the keys' row axis it is the output's column. -/
theorem rhs_score_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
/-- On the keys' contracted axis it is the contraction position. -/
theorem rhs_score_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- The scores of one query tile, into zero: entry (r, t) is the dot product of query row r with key row t. -/
theorem score_matmul_apply (q : FVec Ideal S256x512 .f32) (k : FVec Ideal S2048x512 .f32) (r : Fin 256) (t : Fin 2048) :
    matmul dot_S256x512_S2048x512_S256x2048_1_1_0_0_n_n (some .fp32) q k (constant (F := Ideal) S256x2048 .f32 0x00000000#32) (ix2 r t)
      = ∑ d : Fin 512, q (ix2 r d) * k (ix2 t d) := by
  simp only [matmul]
  rw [Ideal.matmul_constant_zero_apply, ← Equiv.sum_comp (ValueIdx.contrEquiv1 dot_S256x512_S2048x512_S256x2048_1_1_0_0_n_n 512 rfl rfl).symm]
  refine Finset.sum_congr rfl fun d _ => ?_
  have hk := ValueIdx.contrEquiv1_symm_val dot_S256x512_S2048x512_S256x2048_1_1_0_0_n_n 512 rfl rfl d
  have el : dot_S256x512_S2048x512_S256x2048_1_1_0_0_n_n.lhsIdx (ix2 r t) ((ValueIdx.contrEquiv1 dot_S256x512_S2048x512_S256x2048_1_1_0_0_n_n 512 rfl rfl).symm d) = ix2 r d := funext fun a => Fin.ext (by
    match a with
    | ⟨0, _⟩ => exact lhs_score_0 _ _
    | ⟨1, _⟩ => exact (lhs_score_1 _ _).trans hk)
  have er : dot_S256x512_S2048x512_S256x2048_1_1_0_0_n_n.rhsIdx (ix2 r t) ((ValueIdx.contrEquiv1 dot_S256x512_S2048x512_S256x2048_1_1_0_0_n_n 512 rfl rfl).symm d) = ix2 t d := funext fun a => Fin.ext (by
    match a with
    | ⟨0, _⟩ => exact rhs_score_0 _ _
    | ⟨1, _⟩ => exact (rhs_score_1 _ _).trans hk)
  rw [el, er]

/-- The word the row maximum is folded from denotes `-∞`. -/
theorem ofBits_neg_inf_f32 : Ideal.ofBits .f32 0xFF800000#32 = (⊥ : EReal) := by simp [Ideal.ofBits, Ideal.ieee]

/-- The maximum over the columns of a [256, 2048] array: at row r, the fold of `max` from `-∞` over the row's entries. -/
theorem rowmax_apply (x : FVec Ideal S256x2048 .f32) (r : Fin 256) :
    multiReduction .maximumf [1] S256 x 0xFF800000#32 reduces_S256x2048_S256 (.inl rfl) rfl (ix1 r)
      = (Finset.univ : Finset (Fin 2048)).fold max (⊥ : EReal) (fun t => x (ix2 r t)) := by
  refine (Ideal.multiReduction_maximumf_single x 0xFF800000#32 reduces_S256x2048_S256 (.inl rfl) rfl (ix1 r)).trans ?_
  show (Finset.univ : Finset (Fin 2048)).fold max (Ideal.ofBits .f32 0xFF800000#32) (x ∘ reduces_S256x2048_S256.lift (ix1 r)) = _
  rw [ofBits_neg_inf_f32]
  have e : x ∘ reduces_S256x2048_S256.lift (ix1 r) = fun t : Fin 2048 => x (ix2 r t) :=
    funext fun t => congrArg x (funext fun a => Fin.ext (by
      match a with
      | ⟨0, _⟩ => rfl
      | ⟨1, _⟩ => rfl))
  rw [e]
  rfl

/-- The sum over the columns of a [256, 2048] array: at row r, the sum of the row's entries. -/
theorem rowsum_apply (x : FVec Ideal S256x2048 .f32) (r : Fin 256) :
    multiReduction .add [1] S256 x 0x00000000#32 reduces_S256x2048_S256 (.inl rfl) rfl (ix1 r) = ∑ t : Fin 2048, x (ix2 r t) := by
  refine (Ideal.multiReduction_add_single x 0x00000000#32 reduces_S256x2048_S256 (.inl rfl) rfl (ix1 r)).trans ?_
  show ∑ t : Fin 2048, x (reduces_S256x2048_S256.lift (ix1 r) t) = _
  refine Finset.sum_congr rfl fun t _ => congrArg x (funext fun a => Fin.ext ?_)
  match a with
  | ⟨0, _⟩ => rfl
  | ⟨1, _⟩ => rfl

/-- The sum over the rows of a [256, 2048] array: at column s', the sum of the column's entries. -/
theorem colsum_apply (x : FVec Ideal S256x2048 .f32) (s' : Fin 2048) :
    multiReduction .add [0] S2048 x 0x00000000#32 reduces_S256x2048_S2048 (.inl rfl) rfl (ix1 s') = ∑ r : Fin 256, x (ix2 r s') := by
  refine (Ideal.multiReduction_add_single x 0x00000000#32 reduces_S256x2048_S2048 (.inl rfl) rfl (ix1 s')).trans ?_
  show ∑ r : Fin 256, x (reduces_S256x2048_S2048.lift (ix1 s') r) = _
  refine Finset.sum_congr rfl fun r _ => congrArg x (funext fun a => Fin.ext ?_)
  match a with
  | ⟨0, _⟩ => rfl
  | ⟨1, _⟩ => rfl

/-- A [256] vector kept as a [256, 1] column reads, at (r, u), the vector at r. -/
theorem col_cast_apply (x : FVec Ideal S256 .f32) (r : Fin 256) (u : Fin 1) :
    shapeCast S256x1 x shapeCasts_S256_S256x1 (ix2 r u) = x (ix1 r) :=
  shapeCast_apply x shapeCasts_S256_S256x1 _ _ (by
    have hu : u.val = 0 := by omega
    rw [Shape.rowMajor_val_one, Shape.rowMajor_val_two]
    show r.val = r.val * 1 + u.val
    rw [hu, Nat.mul_one, Nat.add_zero])

/-- A [256, 1] column spread over 2048 columns reads, at (r, t), the column at (r, 0). -/
theorem col_bcast_apply (x : FVec Ideal S256x1 .f32) (r : Fin 256) (t : Fin 2048) :
    broadcastTo S256x2048 x broadcasts_S256x1_S256x2048 (ix2 r t) = x (ix2 r 0) :=
  broadcastTo_apply x broadcasts_S256x1_S256x2048 (ix2 r t) (ix2 r 0) (fun a => match a with
    | ⟨0, _⟩ => by show r.val = if (256 : Nat) = 1 then 0 else r.val; rw [if_neg (by decide)]
    | ⟨1, _⟩ => by show (0 : Nat) = if (1 : Nat) = 1 then 0 else t.val; rw [if_pos rfl])

/-- The exponential of a vector reads, at an index, the exponential of the entry. -/
theorem vexp_apply {s : Shape} (a : FVec Ideal s .f32) (i : s.Idx) : exp a i = Ideal.exp (a i) := rfl

/-- The row maxima of a [256, 2048] array, kept as a column and spread back over the row. -/
def rowMaxB (x : FVec Ideal S256x2048 .f32) : FVec Ideal S256x2048 .f32 :=
  broadcastTo S256x2048 (shapeCast S256x1 (multiReduction .maximumf [1] S256 x 0xFF800000#32 reduces_S256x2048_S256 (.inl rfl) rfl) shapeCasts_S256_S256x1) broadcasts_S256x1_S256x2048

/-- The row sums of a [256, 2048] array, kept as a column and spread back over the row. -/
def rowSumB (y : FVec Ideal S256x2048 .f32) : FVec Ideal S256x2048 .f32 :=
  broadcastTo S256x2048 (shapeCast S256x1 (multiReduction .add [1] S256 y 0x00000000#32 reduces_S256x2048_S256 (.inl rfl) rfl) shapeCasts_S256_S256x1) broadcasts_S256x1_S256x2048

/-- The exponentials of a [256, 2048] array's entries, each shifted by its row's maximum. -/
def expT (x : FVec Ideal S256x2048 .f32) : FVec Ideal S256x2048 .f32 := exp (subf x (rowMaxB x))

/-- The row softmax of a [256, 2048] array, as the kernel forms it. -/
def smaxT (x : FVec Ideal S256x2048 .f32) : FVec Ideal S256x2048 .f32 := divf (expT x) (rowSumB (expT x))

theorem rowMaxB_apply (x : FVec Ideal S256x2048 .f32) (r : Fin 256) (t : Fin 2048) :
    rowMaxB x (ix2 r t) = (Finset.univ : Finset (Fin 2048)).fold max (⊥ : EReal) (fun u => x (ix2 r u)) := by
  unfold rowMaxB
  rw [col_bcast_apply, col_cast_apply, rowmax_apply]

theorem rowSumB_apply (y : FVec Ideal S256x2048 .f32) (r : Fin 256) (t : Fin 2048) :
    rowSumB y (ix2 r t) = ∑ u : Fin 2048, y (ix2 r u) := by
  unfold rowSumB
  rw [col_bcast_apply, col_cast_apply, rowsum_apply]

theorem expT_apply (x : FVec Ideal S256x2048 .f32) (r : Fin 256) (t : Fin 2048) :
    expT x (ix2 r t) = Ideal.exp (x (ix2 r t) - (Finset.univ : Finset (Fin 2048)).fold max (⊥ : EReal) (fun u => x (ix2 r u))) := by
  unfold expT
  rw [vexp_apply, subf_apply, rowMaxB_apply]

/-- The kernel's row softmax at (r, t) is the softmax of row r at t. -/
theorem smaxT_apply (x : FVec Ideal S256x2048 .f32) (r : Fin 256) (t : Fin 2048) :
    smaxT x (ix2 r t) = Spec.smax (fun u : Fin 2048 => x (ix2 r u)) t := by
  unfold smaxT Spec.smax
  rw [divf_apply, rowSumB_apply, expT_apply]
  exact congrArg (Ideal.div _) (Finset.sum_congr rfl fun u _ => expT_apply x r u)

/-- The accumulated column sum is the old one plus the column sums of the row softmax of the tile's scores. -/
theorem pay6_eq (q : FVec Ideal S256x512 .f32) (k : FVec Ideal S2048x512 .f32) (cs : FVec Ideal S1x2048 .f32) :
    k0_pay6 (F := Ideal) q k cs
      = shapeCast S1x2048 (addf cs (shapeCast S1x2048 (multiReduction .add [0] S2048
          (smaxT (matmul dot_S256x512_S2048x512_S256x2048_1_1_0_0_n_n (some .fp32) q k (constant (F := Ideal) S256x2048 .f32 0x00000000#32)))
          0x00000000#32 reduces_S256x2048_S2048 (.inl rfl) rfl) shapeCasts_S2048_S1x2048)) shapeCasts_S1x2048_S1x2048 := rfl

/-- THE ACCUMULATED COLUMN SUM at an index: at column s', what was there plus the sum over the tile's 256 query rows of the
    softmax of the row's scores at s'. -/
theorem pay6_apply (q : Vec Ideal S256x512 .f32) (k : Vec Ideal S2048x512 .f32) (cs : Vec Ideal S1x2048 .f32) (s' : Fin 2048) :
    k0_pay6 (F := Ideal) q k cs (ix2 0 s')
      = cs (ix2 0 s') + ∑ r : Fin 256, Spec.smax (fun t : Fin 2048 => ∑ d : Fin 512, q (ix2 r d) * k (ix2 t d)) s' := by
  rw [pay6_eq, shapeCast_self, addf_apply, shapeCast_a_1a_apply, colsum_apply]
  refine congrArg (cs (ix2 0 s') + ·) (Finset.sum_congr rfl fun r _ => ?_)
  rw [smaxT_apply]
  exact congrArg (fun row : Fin 2048 → EReal => Spec.smax row s') (funext fun t => score_matmul_apply q k r t)

/-! ## The hidden row: the column sums against the values, against the first layer's weight, plus the bias, clipped at zero -/

/-- On the column sums' unit axis the product's index is the output's row. -/
theorem lhs_cv_0 (i : S1x512.Idx) (q : dot_S1x2048_S2048x512_S1x512_1_0_0_1_n_n.contr.Idx) :
    (dot_S1x2048_S2048x512_S1x512_1_0_0_1_n_n.lhsIdx i q 0).val = (i 0).val := by
  unfold DotDims.lhsIdx
  rw [dif_neg (show ¬(0 : Fin S1x2048.rank) ∈ dot_S1x2048_S2048x512_S1x512_1_0_0_1_n_n.lhsBatch by decide), dif_pos (show (0 : Fin S1x2048.rank) ∈ dot_S1x2048_S2048x512_S1x512_1_0_0_1_n_n.lhsNonContracting by decide)]
  rfl
/-- On the column sums' contracted axis it is the contraction position. -/
theorem lhs_cv_1 (i : S1x512.Idx) (q : dot_S1x2048_S2048x512_S1x512_1_0_0_1_n_n.contr.Idx) :
    (dot_S1x2048_S2048x512_S1x512_1_0_0_1_n_n.lhsIdx i q 1).val = (q ⟨0, by decide⟩).val :=
  dot_S1x2048_S2048x512_S1x512_1_0_0_1_n_n.lhsIdx_val_of_single rfl i q
/-- On the values' contracted axis (their rows) it is the contraction position. -/
theorem rhs_cv_0 (i : S1x512.Idx) (q : dot_S1x2048_S2048x512_S1x512_1_0_0_1_n_n.contr.Idx) :
    (dot_S1x2048_S2048x512_S1x512_1_0_0_1_n_n.rhsIdx i q 0).val = (q ⟨0, by decide⟩).val :=
  dot_S1x2048_S2048x512_S1x512_1_0_0_1_n_n.rhsIdx_val_of_single rfl i q
/-- On the values' feature axis it is the output's column. -/
theorem rhs_cv_1 (i : S1x512.Idx) (q : dot_S1x2048_S2048x512_S1x512_1_0_0_1_n_n.contr.Idx) :
    (dot_S1x2048_S2048x512_S1x512_1_0_0_1_n_n.rhsIdx i q 1).val = (i 1).val := by
  unfold DotDims.rhsIdx
  rw [dif_neg (show ¬(1 : Fin S2048x512.rank) ∈ dot_S1x2048_S2048x512_S1x512_1_0_0_1_n_n.rhsBatch by decide), dif_pos (show (1 : Fin S2048x512.rank) ∈ dot_S1x2048_S2048x512_S1x512_1_0_0_1_n_n.rhsNonContracting by decide)]
  rfl

/-- The column sums [1, 2048] times the values [2048, 512], into zero: entry (u, d) is the sum over the positions s' of the
    column sum at s' times the value at (s', d). -/
theorem cv_matmul_apply (cs : FVec Ideal S1x2048 .f32) (v : FVec Ideal S2048x512 .f32) (u : Fin 1) (d : Fin 512) :
    matmul dot_S1x2048_S2048x512_S1x512_1_0_0_1_n_n (some .fp32) cs v (constant (F := Ideal) S1x512 .f32 0x00000000#32) (ix2 u d)
      = ∑ s' : Fin 2048, cs (ix2 u s') * v (ix2 s' d) := by
  simp only [matmul]
  rw [Ideal.matmul_constant_zero_apply, ← Equiv.sum_comp (ValueIdx.contrEquiv1 dot_S1x2048_S2048x512_S1x512_1_0_0_1_n_n 2048 rfl rfl).symm]
  refine Finset.sum_congr rfl fun s' _ => ?_
  have hk := ValueIdx.contrEquiv1_symm_val dot_S1x2048_S2048x512_S1x512_1_0_0_1_n_n 2048 rfl rfl s'
  have el : dot_S1x2048_S2048x512_S1x512_1_0_0_1_n_n.lhsIdx (ix2 u d) ((ValueIdx.contrEquiv1 dot_S1x2048_S2048x512_S1x512_1_0_0_1_n_n 2048 rfl rfl).symm s') = ix2 u s' := funext fun a => Fin.ext (by
    match a with
    | ⟨0, _⟩ => exact lhs_cv_0 _ _
    | ⟨1, _⟩ => exact (lhs_cv_1 _ _).trans hk)
  have er : dot_S1x2048_S2048x512_S1x512_1_0_0_1_n_n.rhsIdx (ix2 u d) ((ValueIdx.contrEquiv1 dot_S1x2048_S2048x512_S1x512_1_0_0_1_n_n 2048 rfl rfl).symm s') = ix2 s' d := funext fun a => Fin.ext (by
    match a with
    | ⟨0, _⟩ => exact (rhs_cv_0 _ _).trans hk
    | ⟨1, _⟩ => exact rhs_cv_1 _ _)
  rw [el, er]

/-- On the attended row's unit axis the product's index is the output's row. -/
theorem lhs_hid_0 (i : S1x2048.Idx) (q : dot_S1x512_S2048x512_S1x2048_1_1_0_0_n_n.contr.Idx) :
    (dot_S1x512_S2048x512_S1x2048_1_1_0_0_n_n.lhsIdx i q 0).val = (i 0).val := by
  unfold DotDims.lhsIdx
  rw [dif_neg (show ¬(0 : Fin S1x512.rank) ∈ dot_S1x512_S2048x512_S1x2048_1_1_0_0_n_n.lhsBatch by decide), dif_pos (show (0 : Fin S1x512.rank) ∈ dot_S1x512_S2048x512_S1x2048_1_1_0_0_n_n.lhsNonContracting by decide)]
  rfl
/-- On the attended row's contracted axis it is the contraction position. -/
theorem lhs_hid_1 (i : S1x2048.Idx) (q : dot_S1x512_S2048x512_S1x2048_1_1_0_0_n_n.contr.Idx) :
    (dot_S1x512_S2048x512_S1x2048_1_1_0_0_n_n.lhsIdx i q 1).val = (q ⟨0, by decide⟩).val :=
  dot_S1x512_S2048x512_S1x2048_1_1_0_0_n_n.lhsIdx_val_of_single rfl i q
/-- On the weight's row axis (the hidden unit) it is the output's column. -/
theorem rhs_hid_0 (i : S1x2048.Idx) (q : dot_S1x512_S2048x512_S1x2048_1_1_0_0_n_n.contr.Idx) :
    (dot_S1x512_S2048x512_S1x2048_1_1_0_0_n_n.rhsIdx i q 0).val = (i 1).val := by
  unfold DotDims.rhsIdx
  rw [dif_neg (show ¬(0 : Fin S2048x512.rank) ∈ dot_S1x512_S2048x512_S1x2048_1_1_0_0_n_n.rhsBatch by decide), dif_pos (show (0 : Fin S2048x512.rank) ∈ dot_S1x512_S2048x512_S1x2048_1_1_0_0_n_n.rhsNonContracting by decide)]
  rfl
/-- On the weight's contracted axis it is the contraction position. -/
theorem rhs_hid_1 (i : S1x2048.Idx) (q : dot_S1x512_S2048x512_S1x2048_1_1_0_0_n_n.contr.Idx) :
    (dot_S1x512_S2048x512_S1x2048_1_1_0_0_n_n.rhsIdx i q 1).val = (q ⟨0, by decide⟩).val :=
  dot_S1x512_S2048x512_S1x2048_1_1_0_0_n_n.rhsIdx_val_of_single rfl i q

/-- The attended row [1, 512] times the first layer's weight [2048, 512], both contracted on their last axis, into zero: entry
    (u, j) is the dot product of the row with the weight's row j. -/
theorem hid_matmul_apply (y : FVec Ideal S1x512 .f32) (w1 : FVec Ideal S2048x512 .f32) (u : Fin 1) (j : Fin 2048) :
    matmul dot_S1x512_S2048x512_S1x2048_1_1_0_0_n_n (some .fp32) y w1 (constant (F := Ideal) S1x2048 .f32 0x00000000#32) (ix2 u j)
      = ∑ d : Fin 512, y (ix2 u d) * w1 (ix2 j d) := by
  simp only [matmul]
  rw [Ideal.matmul_constant_zero_apply, ← Equiv.sum_comp (ValueIdx.contrEquiv1 dot_S1x512_S2048x512_S1x2048_1_1_0_0_n_n 512 rfl rfl).symm]
  refine Finset.sum_congr rfl fun d _ => ?_
  have hk := ValueIdx.contrEquiv1_symm_val dot_S1x512_S2048x512_S1x2048_1_1_0_0_n_n 512 rfl rfl d
  have el : dot_S1x512_S2048x512_S1x2048_1_1_0_0_n_n.lhsIdx (ix2 u j) ((ValueIdx.contrEquiv1 dot_S1x512_S2048x512_S1x2048_1_1_0_0_n_n 512 rfl rfl).symm d) = ix2 u d := funext fun a => Fin.ext (by
    match a with
    | ⟨0, _⟩ => exact lhs_hid_0 _ _
    | ⟨1, _⟩ => exact (lhs_hid_1 _ _).trans hk)
  have er : dot_S1x512_S2048x512_S1x2048_1_1_0_0_n_n.rhsIdx (ix2 u j) ((ValueIdx.contrEquiv1 dot_S1x512_S2048x512_S1x2048_1_1_0_0_n_n 512 rfl rfl).symm d) = ix2 j d := funext fun a => Fin.ext (by
    match a with
    | ⟨0, _⟩ => exact rhs_hid_0 _ _
    | ⟨1, _⟩ => exact (rhs_hid_1 _ _).trans hk)
  rw [el, er]

/-- A [2048] vector stored as a [1, 1, 2048] block reads, at (u, u', j), the vector at j. -/
theorem row_cast3_apply (x : FVec Ideal S2048 .f32) (u u' : Fin 1) (j : Fin 2048) :
    shapeCast S1x1x2048 x shapeCasts_S2048_S1x1x2048 (ix3 u u' j) = x (ix1 j) :=
  shapeCast_apply x shapeCasts_S2048_S1x1x2048 _ _ (by
    have hu : u.val = 0 := by omega
    have hu' : u'.val = 0 := by omega
    rw [Shape.rowMajor_val_one, Shape.rowMajor_val_three]
    show j.val = (u.val * 1 + u'.val) * 2048 + j.val
    rw [hu, hu', Nat.zero_mul, Nat.zero_add])

/-- THE HIDDEN ROW at an index: at hidden unit j, the column sums against the values, against the weight's row j, plus the bias
    at j, clipped below at zero. -/
theorem pay7_apply (cs : Vec Ideal S1x2048 .f32) (v : Vec Ideal S2048x512 .f32) (w1 : Vec Ideal S2048x512 .f32) (b1 : Vec Ideal S1x2048 .f32) (j : Fin 2048) :
    k0_pay7 (F := Ideal) cs v w1 b1 (ix3 0 0 j)
      = max ((∑ d : Fin 512, (∑ s' : Fin 2048, cs (ix2 0 s') * v (ix2 s' d)) * w1 (ix2 j d)) + b1 (ix2 0 j)) 0 := by
  unfold k0_pay7
  rw [row_cast3_apply, shapeCast_1a_a_apply, maximumf_apply, addf_apply, shapeCast_self, hid_matmul_apply, broadcast_apply]
  refine congrArg₂ max (congrArg (· + b1 (ix2 0 j)) (Finset.sum_congr rfl fun d _ => ?_)) Ideal.ofBits_zero_f32
  rw [cv_matmul_apply]

end Cert.KernelIdeal.Val

end
-- ==== Proof.Val.K0.lean ====
import proofs.«411274_j4071628997014_3_alg».proof.Proof.Val.K0Blocks
import proofs.«411274_j4071628997014_3_alg».proof.Proof.Val.K0Pieces
import proofs.«411274_j4071628997014_3_alg».proof.Proof.Val.K0Pay
import proofs.«411274_j4071628997014_3_alg».proof.Proof.Val.Spec
import Idealize.ShloMosaic.Lib.Pipeline.Value
import Idealize.ShloMosaic.Lib.ValueIdx

/-! # The attention region's output array, as one function of the arrays the region is entered with

Region 0 runs over 64 grid points; point `n` works on batch row `n / 8` and query tile `n % 8`. At a row's first tile it
stores the row's three projections q, k, v = e·Wᵀ of the row's 2048 embedded tokens and resets the running column sum; at every
tile it adds to the column sum, for each key position, the sum over the tile's 256 query rows of the row softmax of the scores
q·kᵀ; at the row's last tile it writes the hidden row `max (Σ_d (Σ_s' colsum s' · v s' d) · W1 j d + b1 j) 0`.

The carried state is followed along the grid by induction on the point: after point `n` the stored projections are the
projections of row `n / 8`, and the column sum is the accumulated sum over the tiles `0 … n % 8` (`Spec.colAcc`). At the last
tile the stored block is therefore `Spec.hidK` of the row; the eight stored blocks tile the [8, 1, 2048] output, so entry
(b, 0, j) of the output array after the region is `Spec.hidK … b j` over the region-entry arrays. The sums are the kernel's
own, term by term and in its order: nothing is rearranged. -/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-! ## One grid point's arithmetic, over plain values -/

section point
variable (E : Fin 8 → Fin 2048 → Fin 512 → EReal) (Wq Wk Wv : Fin 512 → Fin 512 → EReal)

/-- The row softmax of the scores of the query and key projections. -/
abbrev att : Fin 8 → Fin 2048 → Fin 2048 → EReal := Spec.attn (Spec.score (Spec.proj E Wq) (Spec.proj E Wk))

/-- The carried state after query tile `qi` of batch row `b`: the three scratch projections are the row's projections,
    and the running column sum is the sum of the softmax's columns over the query tiles `0 … qi`. -/
def Good (b : ℕ) (hb : b < 8) (qi : ℕ) (hqi : qi < 8) (q k v : Vec Ideal S2048x512 .f32) (cs : Vec Ideal S1x2048 .f32) : Prop :=
  (∀ (s : Fin 2048) (d : Fin 512), q (ix2 s d) = Spec.proj E Wq ⟨b, hb⟩ s d)
  ∧ (∀ (s : Fin 2048) (d : Fin 512), k (ix2 s d) = Spec.proj E Wk ⟨b, hb⟩ s d)
  ∧ (∀ (s : Fin 2048) (d : Fin 512), v (ix2 s d) = Spec.proj E Wv ⟨b, hb⟩ s d)
  ∧ ∀ s' : Fin 2048, cs (ix2 0 s') = Spec.colAcc (att E Wq Wk) ⟨b, hb⟩ qi hqi s'

/-- The state's description does not depend on how the batch row and the tile number are written. -/
theorem Good.congr {b b' qi qi' : ℕ} (eb : b = b') (eqi : qi = qi') (hb : b < 8) (hb' : b' < 8) (hqi : qi < 8) (hqi' : qi' < 8)
    {q k v : Vec Ideal S2048x512 .f32} {cs : Vec Ideal S1x2048 .f32} (h : Good E Wq Wk Wv b hb qi hqi q k v cs) :
    Good E Wq Wk Wv b' hb' qi' hqi' q k v cs := by
  subst eb; subst eqi; exact h

/-- A block of embeddings against a weight, summed over the features, is the projection. -/
theorem sum_proj (W : Fin 512 → Fin 512 → EReal) (b : Fin 8) (x0 : Vec Ideal S1x2048x512 .f32) (w : Vec Ideal S512x512 .f32)
    (hx : ∀ (s : Fin 2048) (e : Fin 512), x0 (ix3 0 s e) = E b s e) (hw : ∀ d e : Fin 512, w (ix2 d e) = W d e) (s : Fin 2048) (d : Fin 512) :
    (∑ e : Fin 512, x0 (ix3 0 s e) * w (ix2 d e)) = Spec.proj E W b s d :=
  Finset.sum_congr rfl fun e _ => by rw [hx s e, hw d e]

/-- ONE TILE'S UPDATE of the column sum: over the query tile `qi` of the row's query projection and the row's key projection,
    the update adds to what the column sum held the tile's column sums of the softmax. -/
theorem tile_update (b : Fin 8) (i : grid0.Coords) (qi : ℕ) (hqi : qi < 8) (hi : (i 1).val = qi)
    (q k : Vec Ideal S2048x512 .f32) (cs : Vec Ideal S1x2048 .f32)
    (hq : ∀ (s : Fin 2048) (d : Fin 512), q (ix2 s d) = Spec.proj E Wq b s d)
    (hk : ∀ (s : Fin 2048) (d : Fin 512), k (ix2 s d) = Spec.proj E Wk b s d) (s' : Fin 2048) :
    k0_pay6 (F := Ideal) (View.ld q (Rect.unit (s := S2048x512) (k0_off1 i) S256x512.size (k0_off1_inb i))) k cs (ix2 0 s')
      = cs (ix2 0 s') + Spec.tileSum (att E Wq Wk) b ⟨qi, hqi⟩ s' := by
  rw [pay6_apply]
  refine congrArg (cs (ix2 0 s') + ·) ?_
  unfold Spec.tileSum
  refine Finset.sum_congr rfl fun r _ => ?_
  refine Eq.trans ?_ (Spec.attn_eq_smax (Spec.score (Spec.proj E Wq) (Spec.proj E Wk)) b (Spec.tileRow ⟨qi, hqi⟩ r) s').symm
  refine congrArg (fun row : Fin 2048 → EReal => Spec.smax row s') (funext fun t => ?_)
  show _ = ∑ d : Fin 512, Spec.proj E Wq b (Spec.tileRow ⟨qi, hqi⟩ r) d * Spec.proj E Wk b t d
  refine Finset.sum_congr rfl fun d _ => ?_
  rw [qtile_apply, hq, hk]
  refine congrArg (fun z : Fin 2048 => Spec.proj E Wq b z d * Spec.proj E Wk b t d) (Fin.ext ?_)
  show 256 * (i 1).val + r.val = 256 * qi + r.val
  rw [hi]

/-- THE FIRST TILE of a batch row: the three projections are stored, and the column sum is the first tile's column sums
    added to zero. -/
theorem goodA (b : ℕ) (hb : b < 8) (i : grid0.Coords) (hi : (i 1).val = 0)
    (x0 : Vec Ideal S1x2048x512 .f32) (wq wk wv : Vec Ideal S512x512 .f32)
    (hx : ∀ (s : Fin 2048) (e : Fin 512), x0 (ix3 0 s e) = E ⟨b, hb⟩ s e)
    (hwq : ∀ d e : Fin 512, wq (ix2 d e) = Wq d e) (hwk : ∀ d e : Fin 512, wk (ix2 d e) = Wk d e) (hwv : ∀ d e : Fin 512, wv (ix2 d e) = Wv d e)
    (q k v : Vec Ideal S2048x512 .f32) (cs : Vec Ideal S1x2048 .f32)
    (eq : q = k0_pay2 x0 wq) (ek : k = k0_pay3 x0 wk) (ev : v = k0_pay4 x0 wv)
    (ecs : cs = k0_pay6 (View.ld (k0_pay2 x0 wq) (Rect.unit (s := S2048x512) (k0_off1 i) S256x512.size (k0_off1_inb i))) (k0_pay3 x0 wk) (k0_pay5 (F := Ideal))) :
    Good E Wq Wk Wv b hb 0 (by decide) q k v cs := by
  subst eq ek ev ecs
  have hq : ∀ (s : Fin 2048) (d : Fin 512), k0_pay2 (F := Ideal) x0 wq (ix2 s d) = Spec.proj E Wq ⟨b, hb⟩ s d :=
    fun s d => (pay2_apply x0 wq s d).trans (sum_proj E Wq ⟨b, hb⟩ x0 wq hx hwq s d)
  have hk : ∀ (s : Fin 2048) (d : Fin 512), k0_pay3 (F := Ideal) x0 wk (ix2 s d) = Spec.proj E Wk ⟨b, hb⟩ s d :=
    fun s d => (pay3_apply x0 wk s d).trans (sum_proj E Wk ⟨b, hb⟩ x0 wk hx hwk s d)
  have hv : ∀ (s : Fin 2048) (d : Fin 512), k0_pay4 (F := Ideal) x0 wv (ix2 s d) = Spec.proj E Wv ⟨b, hb⟩ s d :=
    fun s d => (pay4_apply x0 wv s d).trans (sum_proj E Wv ⟨b, hb⟩ x0 wv hx hwv s d)
  refine ⟨hq, hk, hv, fun s' => ?_⟩
  rw [tile_update E Wq Wk ⟨b, hb⟩ i 0 (by decide) hi (k0_pay2 x0 wq) (k0_pay3 x0 wk) (k0_pay5 (F := Ideal)) hq hk s', pay5_apply]
  rfl

/-- A LATER TILE: the projections are kept, and the column sum gains the tile's column sums. -/
theorem goodStep (b : ℕ) (hb : b < 8) (m : ℕ) (hm : m + 1 < 8) (i : grid0.Coords) (hi : (i 1).val = m + 1)
    (q k v : Vec Ideal S2048x512 .f32) (cs cs' : Vec Ideal S1x2048 .f32)
    (h : Good E Wq Wk Wv b hb m (Nat.lt_of_succ_lt hm) q k v cs)
    (ecs : cs' = k0_pay6 (View.ld q (Rect.unit (s := S2048x512) (k0_off1 i) S256x512.size (k0_off1_inb i))) k cs) :
    Good E Wq Wk Wv b hb (m + 1) hm q k v cs' := by
  subst ecs
  obtain ⟨hq, hk, hv, hc⟩ := h
  refine ⟨hq, hk, hv, fun s' => ?_⟩
  rw [tile_update E Wq Wk ⟨b, hb⟩ i (m + 1) hm hi q k cs hq hk s', hc s']
  rfl

/-- THE HIDDEN ROW: from the column sum after the last tile, the value projection, and the head's first layer. -/
theorem hid_of_good (W1 : Fin 2048 → Fin 512 → EReal) (B1 : Fin 2048 → EReal) (b : ℕ) (hb : b < 8)
    (q k v : Vec Ideal S2048x512 .f32) (cs : Vec Ideal S1x2048 .f32) (w1 : Vec Ideal S2048x512 .f32) (b1 : Vec Ideal S1x2048 .f32)
    (h : Good E Wq Wk Wv b hb 7 (by decide) q k v cs)
    (hw1 : ∀ (j : Fin 2048) (d : Fin 512), w1 (ix2 j d) = W1 j d) (hb1 : ∀ j : Fin 2048, b1 (ix2 0 j) = B1 j) (j : Fin 2048) :
    k0_pay7 (F := Ideal) cs v w1 b1 (ix3 0 0 j) = Spec.hidK E Wq Wk Wv W1 B1 ⟨b, hb⟩ j := by
  obtain ⟨-, -, hv, hc⟩ := h
  rw [pay7_apply, hb1 j]
  show _ = max ((∑ d : Fin 512, (∑ s' : Fin 2048, Spec.colAcc (att E Wq Wk) ⟨b, hb⟩ 7 (by decide) s' * Spec.proj E Wv ⟨b, hb⟩ s' d) * W1 j d) + B1 j) 0
  refine congrArg (fun z : EReal => max (z + B1 j) 0) (Finset.sum_congr rfl fun d _ => ?_)
  rw [hw1 j d]
  refine congrArg (· * W1 j d) (Finset.sum_congr rfl fun s' _ => ?_)
  rw [hc s', hv s' d]

end point

/-! ## The carried state along the grid -/

section run
variable (V : (c : Dev nD) → (b : Ref sig .tc) → Buf (Elt Ideal) ((c : Thread nD τ).loc b))

/-- The grid's second coordinate is the query tile, the point's number modulo 8 (decided over the 64 points). -/
theorem tile_of_point : ∀ t : Fin cfg0.N, ((grid0.coords t) 1).val = t.val % 8 :=
  (by decide +kernel : ∀ t : Fin grid0.N, ((grid0.coords t) 1).val = t.val % 8)

/-- A point's batch row, its number divided by 8, is one of the 8 rows. -/
theorem row_lt (n : ℕ) (hn : n < cfg0.N) : n / 8 < 8 := by
  have : n < 64 := lt_of_lt_of_eq hn N_0
  omega

/-- THE INVARIANT. After point `n` (batch row `n / 8`, query tile `n % 8`) the three scratch projections are the row's
    projections of the embeddings, and the column sum is the sum of the softmax's columns over the tiles `0 … n % 8`: at a
    row's first tile from that point's blocks, at a later tile from the point before, which is a point of the same row. -/
theorem inv0 (c : Dev nD) (n : ℕ) : ∀ hn : n < cfg0.N,
    Good (Spec.of3 (earr V c)) (Spec.of2 (wqarr V c)) (Spec.of2 (wkarr V c)) (Spec.of2 (wvarr V c)) (n / 8) (row_lt n hn) (n % 8) (Nat.mod_lt n (by decide))
      (outsAt0 V c n hn).2.1 (outsAt0 V c n hn).2.2.1 (outsAt0 V c n hn).2.2.2.1 (outsAt0 V c n hn).2.2.2.2 := by
  induction n using Nat.strong_induction_on with
  | _ n ih =>
    intro hn
    have hN : n < 64 := lt_of_lt_of_eq hn N_0
    have hc1 : ((grid0.coords (⟨n, hn⟩ : Fin cfg0.N)) 1).val = n % 8 := tile_of_point (⟨n, hn⟩ : Fin cfg0.N)
    by_cases h0 : n % 8 = 0
    · have h1 : ¬n % 8 = 7 := by omega
      rw [outsAt0_A V c (⟨n, hn⟩ : Fin cfg0.N) h0 h1]
      dsimp only
      exact Good.congr (Spec.of3 (earr V c)) (Spec.of2 (wqarr V c)) (Spec.of2 (wkarr V c)) (Spec.of2 (wvarr V c)) rfl h0.symm (row_lt n hn) (row_lt n hn) (by decide) (Nat.mod_lt n (by decide))
        (goodA (Spec.of3 (earr V c)) (Spec.of2 (wqarr V c)) (Spec.of2 (wkarr V c)) (Spec.of2 (wvarr V c)) (n / 8) (row_lt n hn) (grid0.coords (⟨n, hn⟩ : Fin cfg0.N)) (hc1.trans h0)
          (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N))
          (fun s e => eblk_apply V c (⟨n, hn⟩ : Fin cfg0.N) s e) (fun d e => wqblk_apply V c (⟨n, hn⟩ : Fin cfg0.N) d e) (fun d e => wkblk_apply V c (⟨n, hn⟩ : Fin cfg0.N) d e) (fun d e => wvblk_apply V c (⟨n, hn⟩ : Fin cfg0.N) d e)
          (sout0_A_0 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_1 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_2 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_3 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_0_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_1_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_2_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)))
          (sout0_A_3_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) ((hcond0_0 (⟨n, hn⟩ : Fin cfg0.N)).mpr h0) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N))))
    · have hp : n - 1 < cfg0.N := Nat.lt_of_le_of_lt (Nat.sub_le _ _) hn
      have ihp := ih (n - 1) (by omega) hp
      have ihq : Good (Spec.of3 (earr V c)) (Spec.of2 (wqarr V c)) (Spec.of2 (wkarr V c)) (Spec.of2 (wvarr V c)) (n / 8) (row_lt n hn) (n % 8 - 1) (by omega) (outsAt0 V c (n - 1) hp).2.1 (outsAt0 V c (n - 1) hp).2.2.1 (outsAt0 V c (n - 1) hp).2.2.2.1 (outsAt0 V c (n - 1) hp).2.2.2.2 :=
        Good.congr (Spec.of3 (earr V c)) (Spec.of2 (wqarr V c)) (Spec.of2 (wkarr V c)) (Spec.of2 (wvarr V c)) (by omega) (by omega) (row_lt (n - 1) hp) (row_lt n hn) (Nat.mod_lt (n - 1) (by decide)) (by omega) ihp
      by_cases h1 : n % 8 = 7
      · rw [outsAt0_C V c (⟨n, hn⟩ : Fin cfg0.N) h0 h1]
        dsimp only
        exact Good.congr (Spec.of3 (earr V c)) (Spec.of2 (wqarr V c)) (Spec.of2 (wkarr V c)) (Spec.of2 (wvarr V c)) rfl (by omega) (row_lt n hn) (row_lt n hn) (by omega) (Nat.mod_lt n (by decide))
          (goodStep (Spec.of3 (earr V c)) (Spec.of2 (wqarr V c)) (Spec.of2 (wkarr V c)) (Spec.of2 (wvarr V c)) (n / 8) (row_lt n hn) (n % 8 - 1) (by omega) (grid0.coords (⟨n, hn⟩ : Fin cfg0.N)) (hc1.trans (by omega))
            (outsAt0 V c (n - 1) hp).2.1 (outsAt0 V c (n - 1) hp).2.2.1 (outsAt0 V c (n - 1) hp).2.2.2.1 (outsAt0 V c (n - 1) hp).2.2.2.2
            (sout0_C_3 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) (fun h => h0 ((hcond0_0 (⟨n, hn⟩ : Fin cfg0.N)).mp h)) ((hcond0_1 (⟨n, hn⟩ : Fin cfg0.N)).mpr h1) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)) (outsAt0 V c (n - 1) hp).2.1 (outsAt0 V c (n - 1) hp).2.2.1 (outsAt0 V c (n - 1) hp).2.2.2.1 (outsAt0 V c (n - 1) hp).2.2.2.2)
            ihq
            (sout0_C_3_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) (fun h => h0 ((hcond0_0 (⟨n, hn⟩ : Fin cfg0.N)).mp h)) ((hcond0_1 (⟨n, hn⟩ : Fin cfg0.N)).mpr h1) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)) (outsAt0 V c (n - 1) hp).2.1 (outsAt0 V c (n - 1) hp).2.2.1 (outsAt0 V c (n - 1) hp).2.2.2.1 (outsAt0 V c (n - 1) hp).2.2.2.2))
      · rw [outsAt0_B V c (⟨n, hn⟩ : Fin cfg0.N) h0 h1]
        dsimp only
        exact Good.congr (Spec.of3 (earr V c)) (Spec.of2 (wqarr V c)) (Spec.of2 (wkarr V c)) (Spec.of2 (wvarr V c)) rfl (by omega) (row_lt n hn) (row_lt n hn) (by omega) (Nat.mod_lt n (by decide))
          (goodStep (Spec.of3 (earr V c)) (Spec.of2 (wqarr V c)) (Spec.of2 (wkarr V c)) (Spec.of2 (wvarr V c)) (n / 8) (row_lt n hn) (n % 8 - 1) (by omega) (grid0.coords (⟨n, hn⟩ : Fin cfg0.N)) (hc1.trans (by omega))
            (outsAt0 V c (n - 1) hp).2.1 (outsAt0 V c (n - 1) hp).2.2.1 (outsAt0 V c (n - 1) hp).2.2.2.1 (outsAt0 V c (n - 1) hp).2.2.2.2
            (sout0_B_3 c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) (fun h => h0 ((hcond0_0 (⟨n, hn⟩ : Fin cfg0.N)).mp h)) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)) (outsAt0 V c (n - 1) hp).2.1 (outsAt0 V c (n - 1) hp).2.2.1 (outsAt0 V c (n - 1) hp).2.2.2.1 (outsAt0 V c (n - 1) hp).2.2.2.2)
            ihq
            (sout0_B_3_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) (fun h => h0 ((hcond0_0 (⟨n, hn⟩ : Fin cfg0.N)).mp h)) (fun h => h1 ((hcond0_1 (⟨n, hn⟩ : Fin cfg0.N)).mp h)) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)) (outsAt0 V c (n - 1) hp).2.1 (outsAt0 V c (n - 1) hp).2.2.1 (outsAt0 V c (n - 1) hp).2.2.2.1 (outsAt0 V c (n - 1) hp).2.2.2.2))

/-- THE OUTPUT BLOCK at a row's last tile: the hidden row of that batch row, from the column sum the last tile completes. -/
theorem out0_at (c : Dev nD) (t : Fin cfg0.N) (h7 : t.val % 8 = 7) (j : Fin 2048) :
    ((outsAt0 V c t.val t.isLt).1 : S1x1x2048.Idx → EReal) (ix3 0 0 j)
      = Spec.hidK (Spec.of3 (earr V c)) (Spec.of2 (wqarr V c)) (Spec.of2 (wkarr V c)) (Spec.of2 (wvarr V c)) (Spec.of2 (w1arr V c)) (fun j => b1arr V c (ix2 0 j)) ⟨t.val / 8, row_lt t.val t.isLt⟩ j := by
  obtain ⟨n, hn⟩ := t
  dsimp only at h7 ⊢
  have h1 : n % 8 = 7 := h7
  have h0 : ¬n % 8 = 0 := by omega
  have hc1 : ((grid0.coords (⟨n, hn⟩ : Fin cfg0.N)) 1).val = n % 8 := tile_of_point (⟨n, hn⟩ : Fin cfg0.N)
  have hp : n - 1 < cfg0.N := Nat.lt_of_le_of_lt (Nat.sub_le _ _) hn
  have ihq : Good (Spec.of3 (earr V c)) (Spec.of2 (wqarr V c)) (Spec.of2 (wkarr V c)) (Spec.of2 (wvarr V c)) (n / 8) (row_lt n hn) 6 (by decide) (outsAt0 V c (n - 1) hp).2.1 (outsAt0 V c (n - 1) hp).2.2.1 (outsAt0 V c (n - 1) hp).2.2.2.1 (outsAt0 V c (n - 1) hp).2.2.2.2 :=
    Good.congr (Spec.of3 (earr V c)) (Spec.of2 (wqarr V c)) (Spec.of2 (wkarr V c)) (Spec.of2 (wvarr V c)) (by omega) (by omega) (row_lt (n - 1) hp) (row_lt n hn) (Nat.mod_lt (n - 1) (by decide)) (by decide) (inv0 V c (n - 1) hp)
  rw [outsAt0_C V c (⟨n, hn⟩ : Fin cfg0.N) h0 h1]
  dsimp only
  refine (congrFun (out0_C_6_eq (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) scM0_1 (Memref.isWhole_whole _) scM0_2 (Memref.isWhole_whole _) scM0_3 (Memref.isWhole_whole _) (fun h => h0 ((hcond0_0 (⟨n, hn⟩ : Fin cfg0.N)).mp h)) ((hcond0_1 (⟨n, hn⟩ : Fin cfg0.N)).mpr h1) (iblk0 V c 0 (⟨n, hn⟩ : Fin cfg0.N)) (iblk0 V c 1 (⟨n, hn⟩ : Fin cfg0.N)) (iblk0 V c 2 (⟨n, hn⟩ : Fin cfg0.N)) (iblk0 V c 3 (⟨n, hn⟩ : Fin cfg0.N)) (iblk0 V c 4 (⟨n, hn⟩ : Fin cfg0.N)) (iblk0 V c 5 (⟨n, hn⟩ : Fin cfg0.N)) (outsAt0 V c (n - 1) hp).2.1 (outsAt0 V c (n - 1) hp).2.2.1 (outsAt0 V c (n - 1) hp).2.2.2.1 (outsAt0 V c (n - 1) hp).2.2.2.2) (ix3 0 0 j)).trans ?_
  exact hid_of_good (Spec.of3 (earr V c)) (Spec.of2 (wqarr V c)) (Spec.of2 (wkarr V c)) (Spec.of2 (wvarr V c)) (Spec.of2 (w1arr V c)) (fun j => b1arr V c (ix2 0 j)) (n / 8) (row_lt n hn)
    (outsAt0 V c (n - 1) hp).2.1 (outsAt0 V c (n - 1) hp).2.2.1 (outsAt0 V c (n - 1) hp).2.2.2.1
    (k0_pay6 (View.ld (outsAt0 V c (n - 1) hp).2.1 (Rect.unit (s := S2048x512) (k0_off1 (grid0.coords (⟨n, hn⟩ : Fin cfg0.N))) S256x512.size (k0_off1_inb (grid0.coords (⟨n, hn⟩ : Fin cfg0.N))))) (outsAt0 V c (n - 1) hp).2.2.1 (outsAt0 V c (n - 1) hp).2.2.2.2)
    (iblk0 V c 4 (⟨n, hn⟩ : Fin cfg0.N)) (iblk0 V c 5 (⟨n, hn⟩ : Fin cfg0.N))
    (goodStep (Spec.of3 (earr V c)) (Spec.of2 (wqarr V c)) (Spec.of2 (wkarr V c)) (Spec.of2 (wvarr V c)) (n / 8) (row_lt n hn) 6 (by decide) (grid0.coords (⟨n, hn⟩ : Fin cfg0.N)) (hc1.trans h1)
      (outsAt0 V c (n - 1) hp).2.1 (outsAt0 V c (n - 1) hp).2.2.1 (outsAt0 V c (n - 1) hp).2.2.2.1 (outsAt0 V c (n - 1) hp).2.2.2.2
      (k0_pay6 (View.ld (outsAt0 V c (n - 1) hp).2.1 (Rect.unit (s := S2048x512) (k0_off1 (grid0.coords (⟨n, hn⟩ : Fin cfg0.N))) S256x512.size (k0_off1_inb (grid0.coords (⟨n, hn⟩ : Fin cfg0.N))))) (outsAt0 V c (n - 1) hp).2.2.1 (outsAt0 V c (n - 1) hp).2.2.2.2)
      ihq rfl)
    (fun j d => w1blk_apply V c (⟨n, hn⟩ : Fin cfg0.N) j d) (fun j => b1blk_apply V c (⟨n, hn⟩ : Fin cfg0.N) j) j

/-- REGION 0'S OUTPUT ARRAY after the region: entry (b, 0, j) is the hidden layer of batch row `b` at `j`, as the kernel
    orders its sums, over the arrays the region is entered with. -/
theorem arr0 (c : Dev nD) (b : Fin 8) (j : Fin 2048) :
    ((dat0 (F := Ideal) V c).arrAt 6 cfg0.N : S8x1x2048.Idx → EReal) (ix3 b 0 j)
      = Spec.hidK (Spec.of3 (earr V c)) (Spec.of2 (wqarr V c)) (Spec.of2 (wkarr V c)) (Spec.of2 (wvarr V c)) (Spec.of2 (w1arr V c)) (fun j => b1arr V c (ix2 0 j)) b j :=
  congrFun (arr0_of_points V c (fun i : S8x1x2048.Idx => Spec.hidK (Spec.of3 (earr V c)) (Spec.of2 (wqarr V c)) (Spec.of2 (wkarr V c)) (Spec.of2 (wvarr V c)) (Spec.of2 (w1arr V c)) (fun j => b1arr V c (ix2 0 j)) (i 0) (i 2))
    (fun t h7 j => out0_at V c t h7 j)) (ix3 b 0 j)

end run

end Cert.KernelIdeal.Val

end
-- ==== Proof.Val.K1.lean ====
import proofs.«411274_j4071628997014_3_alg».proof.Proof.KernelIdeal.R1
import Idealize.ShloMosaic.Lib.Pipeline.Value
import Idealize.ShloMosaic.Lib.ValueIdx
import Idealize.ShloMosaic.Lib.ValueLayout
import Idealize.ShloMosaic.PureOps.Ideal.Laws

/-! # The logits region's output array, as one function of the arrays the region is entered with

Region 1 computes the logits tile by tile: grid point `n` (of 50) reads the eight hidden rows whole, rows
`640 n … 640 n + 639` of the vocabulary matrix and columns `640 n … 640 n + 639` of the bias row, and writes columns
`640 n … 640 n + 639` of the [8, 32000] output: entry (p, q) of the tile is the dot product of hidden row `p` with the tile's
vocabulary row `q`, plus the tile's bias at `q`. The 50 tiles partition the output's columns (column `n` lies in tile
`n / 640`), so after the region entry (p, n) of the output array is `∑ k, h (p, k) · W (n, k) + b (0, n)` over the
region-entry arrays `h`, `W`, `b`. Only commutativity-free rearrangement is used: the sum is the kernel's own, term by term. -/

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-! ## The logits kernel's stored value at an index -/

/-- On the left operand's row axis the matmul's index is the output's row. -/
theorem lhs_logits_0 (i : S8x640.Idx) (q : dot_S8x2048_S640x2048_S8x640_1_1_0_0_n_n.contr.Idx) :
    (dot_S8x2048_S640x2048_S8x640_1_1_0_0_n_n.lhsIdx i q 0).val = (i 0).val := by
  unfold DotDims.lhsIdx
  rw [dif_neg (show ¬(0 : Fin S8x2048.rank) ∈ dot_S8x2048_S640x2048_S8x640_1_1_0_0_n_n.lhsBatch by decide), dif_pos (show (0 : Fin S8x2048.rank) ∈ dot_S8x2048_S640x2048_S8x640_1_1_0_0_n_n.lhsNonContracting by decide)]
  rfl
/-- On the left operand's contracted axis it is the contraction position. -/
theorem lhs_logits_1 (i : S8x640.Idx) (q : dot_S8x2048_S640x2048_S8x640_1_1_0_0_n_n.contr.Idx) :
    (dot_S8x2048_S640x2048_S8x640_1_1_0_0_n_n.lhsIdx i q 1).val = (q ⟨0, by decide⟩).val :=
  dot_S8x2048_S640x2048_S8x640_1_1_0_0_n_n.lhsIdx_val_of_single rfl i q
/-- On the right operand's row axis (the vocabulary rows of the tile) it is the output's column. -/
theorem rhs_logits_0 (i : S8x640.Idx) (q : dot_S8x2048_S640x2048_S8x640_1_1_0_0_n_n.contr.Idx) :
    (dot_S8x2048_S640x2048_S8x640_1_1_0_0_n_n.rhsIdx i q 0).val = (i 1).val := by
  unfold DotDims.rhsIdx
  rw [dif_neg (show ¬(0 : Fin S640x2048.rank) ∈ dot_S8x2048_S640x2048_S8x640_1_1_0_0_n_n.rhsBatch by decide), dif_pos (show (0 : Fin S640x2048.rank) ∈ dot_S8x2048_S640x2048_S8x640_1_1_0_0_n_n.rhsNonContracting by decide)]
  rfl
/-- On the right operand's contracted axis it is the contraction position. -/
theorem rhs_logits_1 (i : S8x640.Idx) (q : dot_S8x2048_S640x2048_S8x640_1_1_0_0_n_n.contr.Idx) :
    (dot_S8x2048_S640x2048_S8x640_1_1_0_0_n_n.rhsIdx i q 1).val = (q ⟨0, by decide⟩).val :=
  dot_S8x2048_S640x2048_S8x640_1_1_0_0_n_n.rhsIdx_val_of_single rfl i q

/-- The matmul of the hidden rows with a tile of 640 vocabulary rows, into zero: entry (p, q) is the dot product of
    hidden row p with the tile's row q. -/
theorem logits_matmul_apply (h : FVec Ideal S8x2048 .f32) (w : FVec Ideal S640x2048 .f32) (p : Fin 8) (q : Fin 640) :
    matmul dot_S8x2048_S640x2048_S8x640_1_1_0_0_n_n (some .fp32) h w (constant (F := Ideal) S8x640 .f32 0x00000000#32) (ix2 p q)
      = ∑ k : Fin 2048, h (ix2 p k) * w (ix2 q k) := by
  simp only [matmul]
  rw [Ideal.matmul_constant_zero_apply, ← Equiv.sum_comp (ValueIdx.contrEquiv1 dot_S8x2048_S640x2048_S8x640_1_1_0_0_n_n 2048 rfl rfl).symm]
  refine Finset.sum_congr rfl fun k _ => ?_
  have hk := ValueIdx.contrEquiv1_symm_val dot_S8x2048_S640x2048_S8x640_1_1_0_0_n_n 2048 rfl rfl k
  have el : dot_S8x2048_S640x2048_S8x640_1_1_0_0_n_n.lhsIdx (ix2 p q) ((ValueIdx.contrEquiv1 dot_S8x2048_S640x2048_S8x640_1_1_0_0_n_n 2048 rfl rfl).symm k) = ix2 p k := funext fun a => Fin.ext (by
    match a with
    | ⟨0, _⟩ => exact lhs_logits_0 _ _
    | ⟨1, _⟩ => exact (lhs_logits_1 _ _).trans hk)
  have er : dot_S8x2048_S640x2048_S8x640_1_1_0_0_n_n.rhsIdx (ix2 p q) ((ValueIdx.contrEquiv1 dot_S8x2048_S640x2048_S8x640_1_1_0_0_n_n 2048 rfl rfl).symm k) = ix2 q k := funext fun a => Fin.ext (by
    match a with
    | ⟨0, _⟩ => exact rhs_logits_0 _ _
    | ⟨1, _⟩ => exact (rhs_logits_1 _ _).trans hk)
  rw [el, er]

/-- The bias row broadcast over the 8 hidden rows reads, at (p, q), the bias of column q. -/
theorem bias_bcast_apply (b : FVec Ideal S1x640 .f32) (p : Fin 8) (q : Fin 640) :
    broadcastTo S8x640 b broadcasts_S1x640_S8x640 (ix2 p q) = b (ix2 0 q) :=
  broadcastTo_apply b broadcasts_S1x640_S8x640 (ix2 p q) (ix2 0 q) (fun a => match a with
    | ⟨0, _⟩ => by show (0 : Nat) = if (1 : Nat) = 1 then 0 else p.val; rw [if_pos rfl]
    | ⟨1, _⟩ => by show q.val = if (640 : Nat) = 1 then 0 else q.val; rw [if_neg (by decide)])

/-- THE STORED TILE at an index: entry (p, q) of what the logits kernel stores is the dot product of hidden row p with
    the tile's vocabulary row q, plus the tile's bias at q. -/
theorem logits_pay_apply (h : Vec Ideal S8x2048 .f32) (w : Vec Ideal S640x2048 .f32) (b : Vec Ideal S1x640 .f32) (p : Fin 8) (q : Fin 640) :
    k1_pay1 h w b (ix2 p q) = (∑ k : Fin 2048, h (ix2 p k) * w (ix2 q k)) + b (ix2 0 q) := by
  unfold k1_pay1
  rw [addf_apply, shapeCast_self, shapeCast_self, logits_matmul_apply, bias_bcast_apply]

/-! ## From the tiles to the array -/

/-- The logits as one function of the hidden rows `h`, the vocabulary matrix `W` and the bias row `b`: entry (p, n) is the
    dot product of hidden row `p` with vocabulary row `n`, plus the bias at `n`. -/
def logitsOf (h : S8x2048.Idx → EReal) (W : S32000x2048.Idx → EReal) (b : S1x32000.Idx → EReal) : S8x32000.Idx → EReal :=
  fun j => (∑ k : Fin 2048, h (ix2 (j 0) k) * W (ix2 (j 1) k)) + b (ix2 0 (j 1))

theorem hz : (![0, 0] : Fin 2 → Nat) = fun _ => 0 := funext fun a => by fin_cases a <;> rfl

/-- The stored tile of point `n`, from blocks that are the arrays' rows and columns `640 n …`: entry `y` of the tile is the
    logit at row `y 0`, column `640 n + y 1`. -/
theorem tile_eq (h : Vec Ideal S8x2048 .f32) (w : Vec Ideal S640x2048 .f32) (b : Vec Ideal S1x640 .f32)
    (H : S8x2048.Idx → EReal) (W : S32000x2048.Idx → EReal) (B : S1x32000.Idx → EReal) (n : Nat) (hn : n < 50)
    (hh : ∀ (p : Fin 8) (k : Fin 2048), h (ix2 p k) = H (ix2 p k))
    (hw : ∀ (q : Fin 640) (k : Fin 2048), w (ix2 q k) = W (ix2 (⟨n * 640 + q.val, by have := q.isLt; omega⟩ : Fin 32000) k))
    (hb : ∀ q : Fin 640, b (ix2 0 q) = B (ix2 0 (⟨n * 640 + q.val, by have := q.isLt; omega⟩ : Fin 32000)))
    (y : S8x640.Idx) :
    k1_pay1 h w b y = logitsOf H W B (ix2 (y 0) (⟨n * 640 + (y 1).val, by have : (y 1).val < 640 := (y 1).isLt; omega⟩ : Fin 32000)) := by
  obtain ⟨p, q, rfl⟩ : ∃ (p : Fin 8) (q : Fin 640), y = ix2 p q := ⟨y 0, y 1, eq_ix2 y⟩
  rw [logits_pay_apply, hb q]
  unfold logitsOf
  exact congrArg (· + _) (Finset.sum_congr rfl fun k _ => by rw [hh p k, hw q k])

/-- The printed index maps, decided over the grid: the hidden rows' window stays at block (0, 0); the vocabulary
    matrix's window is at row block `t`; the bias's and the output's at column block `t`. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

section
variable (V : (c : Dev nD) → (b : Ref sig .tc) → Buf (Elt Ideal) ((c : Thread nD τ).loc b))

/-- The three arrays the region reads, as it finds them: the hidden rows, the vocabulary matrix, the bias row. -/
abbrev harr (c : Dev nD) : S8x2048.Idx → EReal := V c main_v4
abbrev warr (c : Dev nD) : S32000x2048.Idx → EReal := V c main_arg7
abbrev barr (c : Dev nD) : S1x32000.Idx → EReal := V c main_v2

/-- The hidden rows' block at any point is the whole array. -/
theorem hblk_apply (c : Dev nD) (t : Fin cfg1.N) (p : Fin 8) (k : Fin 2048) :
    (iblk1 V c 0 t : Vec Ideal S8x2048 .f32) (ix2 p k) = harr V c (ix2 p k) := by
  obtain ⟨e0, e1, -⟩ := idx_facts1 t
  unfold iblk1
  show V c main_v4 (((cfg1.win 0).blk t).view.emb (ix2 p k)) = V c main_v4 (ix2 p k)
  refine congrArg (V c main_v4) (funext fun a => Fin.ext ?_)
  match a with
  | ⟨0, _⟩ => show win1_0.index t (0 : Fin 2) * 8 + 1 * p.val = p.val; omega
  | ⟨1, _⟩ => show win1_0.index t (1 : Fin 2) * 2048 + 1 * k.val = k.val; omega

/-- The vocabulary matrix's block at point `t` is its rows `640 t … 640 t + 639`. -/
theorem wblk_apply (c : Dev nD) (t : Fin cfg1.N) (q : Fin 640) (k : Fin 2048) :
    (iblk1 V c 1 t : Vec Ideal S640x2048 .f32) (ix2 q k)
      = warr V c (ix2 (⟨t.val * 640 + q.val, by have := q.isLt; have : t.val < 50 := t.isLt; omega⟩ : Fin 32000) k) := by
  obtain ⟨-, -, e2, e3, -⟩ := idx_facts1 t
  unfold iblk1
  show V c main_arg7 (((cfg1.win 1).blk t).view.emb (ix2 q k)) = V c main_arg7 (ix2 _ k)
  refine congrArg (V c main_arg7) (funext fun a => Fin.ext ?_)
  match a with
  | ⟨0, _⟩ => show win1_1.index t (0 : Fin 2) * 640 + 1 * q.val = t.val * 640 + q.val; omega
  | ⟨1, _⟩ => show win1_1.index t (1 : Fin 2) * 2048 + 1 * k.val = k.val; omega

/-- The bias row's block at point `t` is its columns `640 t … 640 t + 639`. -/
theorem bblk_apply (c : Dev nD) (t : Fin cfg1.N) (q : Fin 640) :
    (iblk1 V c 2 t : Vec Ideal S1x640 .f32) (ix2 0 q)
      = barr V c (ix2 0 (⟨t.val * 640 + q.val, by have := q.isLt; have : t.val < 50 := t.isLt; omega⟩ : Fin 32000)) := by
  obtain ⟨-, -, -, -, e4, e5, -⟩ := idx_facts1 t
  unfold iblk1
  show V c main_v2 (((cfg1.win 2).blk t).view.emb (ix2 0 q)) = V c main_v2 (ix2 0 _)
  refine congrArg (V c main_v2) (funext fun a => Fin.ext ?_)
  match a with
  | ⟨0, _⟩ => show win1_2.index t (0 : Fin 2) * 1 + 1 * 0 = 0; omega
  | ⟨1, _⟩ => show win1_2.index t (1 : Fin 2) * 640 + 1 * q.val = t.val * 640 + q.val; omega

/-- WHAT POINT `t` WRITES BACK is block `t` of the logits of the region-entry arrays. -/
theorem flushed1_eq (c : Dev nD) (t : Fin cfg1.N) :
    (dat1 (F := Ideal) V c).flushed 3 t
      = ((cfg1.win 3).blk t).view.read (Elt Ideal) (logitsOf (harr V c) (warr V c) (barr V c)) := by
  show (cfg1.win 3).cut (grid1.coords t) ((dat1 (F := Ideal) V c).after 3 t) = _
  rw [after1_3]
  unfold out1_3
  rw [View.canon_unit_zero hz]
  simp only [View.ld_unit_zero (S := S8x2048) hz, View.ld_unit_zero (S := S640x2048) hz, View.ld_unit_zero (S := S1x640) hz]
  obtain ⟨-, -, -, -, -, -, e6, e7⟩ := idx_facts1 t
  funext y
  refine (tile_eq (iblk1 V c 0 t) (iblk1 V c 1 t) (iblk1 V c 2 t) (harr V c) (warr V c) (barr V c) t.val t.isLt
    (hblk_apply V c t) (wblk_apply V c t) (bblk_apply V c t) y).trans ?_
  show _ = logitsOf (harr V c) (warr V c) (barr V c) (((cfg1.win 3).blk t).view.emb y)
  refine congrArg (logitsOf (harr V c) (warr V c) (barr V c)) (funext fun a => Fin.ext ?_)
  match a with
  | ⟨0, _⟩ => show (y 0).val = win1_3.index t (0 : Fin 2) * 8 + 1 * (y 0).val; omega
  | ⟨1, _⟩ => show t.val * 640 + (y 1).val = win1_3.index t (1 : Fin 2) * 640 + 1 * (y 1).val; omega

/-- An index of the output array is in point `t`'s block iff each coordinate is in the block's range on its axis. -/
theorem mem_blk1_3 (t : Fin cfg1.N) (i : S8x32000.Idx) :
    i ∈ ((cfg1.win 3).blk t).view.set ↔ ∀ a : Fin 2, win1_3.index t a * S8x640.size a ≤ (i a).val ∧ (i a).val < win1_3.index t a * S8x640.size a + S8x640.size a := by
  show i ∈ ((View.whole main_v5).slice (win1_3.rect t)).set ↔ _
  rw [View.set_slice_whole, Rect.mem_set_unit]
  exact Iff.rfl

/-- The tiles cover the output: column `n` lies in the block of point `n / 640`, every row in every block. -/
theorem cover1_3_arr (i : S8x32000.Idx) :
    ∃ t : Fin cfg1.N, (cfg1.win 3).flush t = true ∧ i ∈ ((cfg1.win 3).blk t).view.set := by
  have hi0 : (i 0).val < 8 := (i 0).isLt
  have hi1 : (i 1).val < 32000 := (i 1).isLt
  have hN : cfg1.N = 50 := N_1
  let t : Fin cfg1.N := ⟨(i 1).val / 640, by rw [hN]; omega⟩
  have ht : t.val = (i 1).val / 640 := rfl
  obtain ⟨-, -, -, -, -, -, e6, e7⟩ := idx_facts1 t
  refine ⟨t, flush1_3 t, ?_⟩
  rw [mem_blk1_3]
  intro a
  match a with
  | ⟨0, _⟩ => show win1_3.index t (0 : Fin 2) * 8 ≤ (i 0).val ∧ (i 0).val < win1_3.index t (0 : Fin 2) * 8 + 8; omega
  | ⟨1, _⟩ => show win1_3.index t (1 : Fin 2) * 640 ≤ (i 1).val ∧ (i 1).val < win1_3.index t (1 : Fin 2) * 640 + 640; omega

/-- THE OUTPUT ARRAY after the region: the logits of the region-entry arrays. -/
theorem arr1_eq (c : Dev nD) :
    (dat1 (F := Ideal) V c).arrAt 3 cfg1.N = logitsOf (harr V c) (warr V c) (barr V c) :=
  (dat1 (F := Ideal) V c).arrAt_eq_of_cover 3 (logitsOf (harr V c) (warr V c) (barr V c))
    (fun t _ => flushed1_eq V c t) cover1_3_arr

/-- The same at an index: entry (p, n) is the dot product of hidden row `p` with vocabulary row `n`, plus the bias at `n`. -/
theorem arr1 (c : Dev nD) (j : S8x32000.Idx) :
    (Cert.KernelIdeal.Fr.dat1 (F := Ideal) V c).arrAt 3 cfg1.N j
      = (∑ k : Fin 2048, harr V c (ix2 (j 0) k) * warr V c (ix2 (j 1) k)) + barr V c (ix2 0 (j 1)) :=
  congrFun (arr1_eq V c) j

end

end Cert.KernelIdeal.Val

end
-- ==== Proof.Val.Take.lean ====
import proofs.«411274_j4071628997014_3_alg».proof.Proof.Gen.KernelIdeal.Launch
import proofs.«411274_j4071628997014_3_alg».proof.Proof.Gen.ReferenceIdeal.Read
import Idealize.ShloMosaic.Lib.StableHlo.Predicate
import Idealize.ShloMosaic.Lib.ReduceAll
import Idealize.ShloMosaic.Lib.ValueIdx
import Idealize.ShloMosaic.Lib.ValueLayout

/-! # The kernel program's table lookup, for token ids in range

Before its first region the kernel program looks the token ids up in the embedding table the way `jnp.take` does: an id
`x < 0` is first replaced by `x + 32000`; the rows are gathered at the resulting ids; and every row whose id is not in
`[0, 31999]` is replaced by a row of NaNs. When every id already lies in `[0, 32000)` the first step changes nothing
(`x < 0` is false), the range test is true at every position (`0 ≤ x` and `x ≤ 31999`), so the replacement never
happens and the result is the plain gather of the table's rows at the ids — the same gather, at the same ids, that the
reference program performs. -/

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Idealize.ShloMosaic.ValueIdx

/-! ## The lookup as a term of the ids and the table -/

/-- The ids after the wrap of negative ones (`x < 0 ? x + 32000 : x`), as the gather's [8, 2048, 1] start indices. -/
def normIds (x : IVec S8x2048 32) : IVec S8x2048x1 32 :=
  broadcastInDim S8x2048x1 ![0, 1] bcast_S8x2048_S8x2048x1_0_1
    (select (cmpi .slt x (broadcastInDim S8x2048 ![] bcast_S_S8x2048 (constantI S_ 32 0#32)))
      (addi x (broadcastInDim S8x2048 ![] bcast_S_S8x2048 (constantI S_ 32 32000#32))) x)

/-- The range test `0 ≤ id ≤ 31999` on the wrapped ids. -/
def inRange (x : IVec S8x2048 32) : IVec S8x2048x1 1 :=
  andi (cmpi .sge (normIds x) (broadcastInDim S8x2048x1 ![] bcast_S_S8x2048x1 (constantI S_ 32 0#32)))
    (cmpi .sle (normIds x) (broadcastInDim S8x2048x1 ![0, 1, 2] bcast_S1x1x1_S8x2048x1_0_1_2
      (broadcastInDim S1x1x1 ![2] bcast_S1_S1x1x1_2 (constantI S1 32 31999#32))))

/-- The kernel program's lookup: the gathered rows where the id is in range, NaN elsewhere. -/
def takeK (x : IVec S8x2048 32) (T : FVec Ideal S32000x512 .f32) : FVec Ideal S8x2048x512 .f32 :=
  select (broadcastInDim S8x2048x512 ![0, 1] bcast_S8x2048_S8x2048x512_0_1
      (Host.reduce IntOp.andi (inRange x) (constantI S_ 1 1#1) reducesTo_S8x2048x1_S8x2048_d2 h_S_))
    (Host.gather gather_S32000x512_S8x2048x1_S8x2048x512_2_0_n_n_0_2_1512 T (normIds x))
    (broadcastInDim S8x2048x512 ![] bcast_S_S8x2048x512 (constant (F := Ideal) S_ .f32 0x7FC00000#32))

set_option maxHeartbeats 2000000 in
/-- The first host stretch leaves that term of the ids and the table in the embeddings' buffer. -/
theorem host0_term (W : Valuation τ sig (Elt Ideal)) :
    (StableHlo.after (hostOps0 (F := Ideal)) W (Proc.devRef .tc main_v0) : S8x2048x512.Idx → EReal)
      = takeK (W (Proc.devRef .tc main_arg0)) (W (Proc.devRef .tc main_arg1)) := by
  dsimp only [hostOps0]
  after_results_simp
  simp only [TRef.ofBuf, TRef.toBuf, cast_eq]
  rfl

/-! ## Ids in range -/

/-- `and`-reducing, from 1, a mask that is 1 everywhere gives 1 everywhere. -/
theorem reduce_andi_of_all {s t u : Shape} {axes : List (Fin s.rank)} (m : s.Idx → BitVec 1) (init : u.Idx → BitVec 1)
    (h : s.ReducesTo axes t) (hu : 0 < u.numel) (j : t.Idx) (hinit : ∀ k, init k = 1#1) (hm : ∀ i, m i = 1#1) :
    Host.reduce IntOp.andi m init h hu j = 1#1 := by
  rw [Host.reduce_eq_foldl, hinit]
  generalize (((List.finRange s.numel).map s.rowMajor.symm).filter fun i => h.drop i = j) = l
  induction l with
  | nil => rfl
  | cons a l ih =>
    rw [List.foldl_cons, hm a, show IntOp.andi (1#1 : BitVec 1) 1#1 = 1#1 from by decide]
    exact ih

variable (x : IVec S8x2048 32) (T : FVec Ideal S32000x512 .f32)
variable (hx : ∀ i, IntOp.cmpi .sge (x i) 0#32 = 1#1 ∧ IntOp.cmpi .slt (x i) 32000#32 = 1#1)
include hx

/-- An id that is not negative is not wrapped: the start index at (b, s, 0) is the id at (b, s). -/
theorem normIds_apply (k : S8x2048x1.Idx) : normIds x k = x (ix2 (k 0) (k 1)) := by
  unfold normIds
  refine (broadcastInDim_apply _ bcast_S8x2048_S8x2048x1_0_1 _ k (ix2 (k 0) (k 1)) (fun a => match a with
    | ⟨0, _⟩ => by show (k 0).val = if (8 : Nat) = 1 then 0 else (k 0).val; rw [if_neg (by decide)]
    | ⟨1, _⟩ => by show (k 1).val = if (2048 : Nat) = 1 then 0 else (k 1).val; rw [if_neg (by decide)])).trans ?_
  refine (select_apply _ _ _ _).trans ?_
  have h0 : ¬ (cmpi .slt x (broadcastInDim S8x2048 ![] bcast_S_S8x2048 (constantI S_ 32 0#32)) (ix2 (k 0) (k 1)) = 1#1) := by
    show ¬ (IntOp.cmpi .slt (x (ix2 (k 0) (k 1))) 0#32 = 1#1)
    have h := (hx (ix2 (k 0) (k 1))).1
    rw [IntOp.cmpi_sge] at h
    rw [IntOp.cmpi_slt]
    omega
  exact if_neg h0

/-- Every id passes the range test: `0 ≤ x` is given, and `x < 32000` is `x ≤ 31999`. -/
theorem inRange_apply (k : S8x2048x1.Idx) : inRange x k = 1#1 := by
  unfold inRange
  show IntOp.andi (IntOp.cmpi .sge (normIds x k) 0#32) (IntOp.cmpi .sle (normIds x k) 31999#32) = 1#1
  rw [normIds_apply x hx k, IntOp.andi_eq_one]
  obtain ⟨h0, h1⟩ := hx (ix2 (k 0) (k 1))
  refine ⟨h0, ?_⟩
  rw [IntOp.cmpi_slt] at h1
  rw [IntOp.cmpi_sle]
  have e1 : (32000#32 : BitVec 32).toInt = 32000 := by decide
  have e2 : (31999#32 : BitVec 32).toInt = 31999 := by decide
  omega

/-- So no row is replaced: the lookup is the gather of the table's rows at the ids. -/
theorem takeK_eq_gather : takeK x T = Host.gather gather_S32000x512_S8x2048x1_S8x2048x512_2_0_n_n_0_2_1512 T (normIds x) := by
  funext j
  unfold takeK
  rw [select_apply]
  have hm : broadcastInDim S8x2048x512 ![0, 1] bcast_S8x2048_S8x2048x512_0_1
      (Host.reduce IntOp.andi (inRange x) (constantI S_ 1 1#1) reducesTo_S8x2048x1_S8x2048_d2 h_S_) j = 1#1 := by
    unfold broadcastInDim
    exact reduce_andi_of_all _ _ _ _ _ (fun _ => rfl) (inRange_apply x hx)
  rw [hm, select_one]

omit hx

/-! ## The reference's gather is the same -/

/-- The two programs' gathers have the same dimension numbers (the same fields; their side conditions are propositions). -/
theorem gather_record_eq : gather_S32000x512_S8x2048x1_S8x2048x512_2_0_n_n_0_2_1512 = Cert.ReferenceIdeal.gather_S32000x512_S8x2048x1_S8x2048x512_2_0_n_n_0_2_1512 := rfl

/-- The reference wraps the ids and lays them out as start indices by the same operations. -/
theorem normIds_eq_ref : normIds x = Cert.ReferenceIdeal.Read.val_main_v5 (F := Ideal) x := rfl

include hx

/-- THE LOOKUP, IN RANGE: the kernel program's table lookup is the reference's gather of the same table at the same ids. -/
theorem takeK_eq_ref : takeK x T = Cert.ReferenceIdeal.Read.val_main_v6 (F := Ideal) x T := by
  rw [takeK_eq_gather x T hx]
  unfold Cert.ReferenceIdeal.Read.val_main_v6
  rw [← normIds_eq_ref x, ← gather_record_eq]

omit hx

/-- The same for the buffers: after the first host stretch the embeddings' buffer holds the reference's gather of the
    table's buffer at the ids' buffer, when every id is in `[0, 32000)`. -/
theorem host0_main_v0 (W : Valuation τ sig (Elt Ideal))
    (hx : ∀ i, IntOp.cmpi .sge ((W (Proc.devRef .tc main_arg0) : S8x2048.Idx → BitVec 32) i) 0#32 = 1#1
      ∧ IntOp.cmpi .slt ((W (Proc.devRef .tc main_arg0) : S8x2048.Idx → BitVec 32) i) 32000#32 = 1#1) :
    (StableHlo.after (hostOps0 (F := Ideal)) W (Proc.devRef .tc main_v0) : S8x2048x512.Idx → EReal)
      = Cert.ReferenceIdeal.Read.val_main_v6 (F := Ideal) (W (Proc.devRef .tc main_arg0)) (W (Proc.devRef .tc main_arg1)) :=
  (host0_term W).trans (takeK_eq_ref (W (Proc.devRef .tc main_arg0)) (W (Proc.devRef .tc main_arg1)) hx)

end Cert.KernelIdeal.Val

end
-- ==== Proof.Val.Pre.lean ====
import proofs.«411274_j4071628997014_3_alg».proof.Proof.Gen.Pre_finite_inputs
import proofs.«411274_j4071628997014_3_alg».proof.Proof.Val.Spec
import Idealize.ShloMosaic.Lib.ReduceAll
import Idealize.ShloMosaic.Lib.StableHlo.Predicate
import Idealize.ShloMosaic.Lib.ValueIdx
import Idealize.ShloMosaic.PureOps.Ideal.Laws

/-! # What the precondition says

The precondition is one conjunction of `all`s: for each float input, every entry's absolute value is below `+∞`; and for
the token ids, every id is `≥ 0` and every id is `< 32000` (signed). An extended real whose absolute value `max y (-y)`
is below `+∞` is neither infinity, so it is a real number. Read back here: every entry of the embedding table and of the
first two projection matrices is real, and every token id lies in `[0, 32000)`. -/

noncomputable section

namespace Cert.KernelIdeal.Val

open Idealize.ShloMosaic

/-- The scalar shape has one index. -/
instance : Subsingleton Cert.Pre_finite_inputs.S_.Idx := ⟨fun a b => funext fun d => d.elim0⟩

/-- An extended real whose absolute value is below `+∞` (the word `0x7F800000`) is a real number. -/
theorem isReal_of_abs_lt_inf (y : Ideal .f32)
    (h : FloatOps.cmpf .olt (FloatOps.hostAbsf y) (FloatOps.ofBits (F := Ideal) .f32 0x7F800000#32) = 1#1) : Spec.IsReal y := by
  have htop : Ideal.ofBits .f32 0x7F800000#32 = ⊤ := by simp [Ideal.ofBits, Ideal.ieee]
  change Ideal.cmp .olt (max (y : EReal) (-(y : EReal))) (Ideal.ofBits .f32 0x7F800000#32) = 1#1 at h
  rw [htop] at h
  simp only [Ideal.cmp, StableHlo.Predicate.ofBool_eq_one_iff, decide_eq_true_eq] at h
  induction y using EReal.rec with
  | bot => simp at h
  | coe r => exact ⟨r, rfl⟩
  | top => simp at h

/-- THE PRECONDITION, READ BACK: the embedding table and the first two projection matrices hold real numbers, and every
    token id is in `[0, 32000)`. -/
theorem pre_decode (x : IVec Cert.Pre_finite_inputs.S8x2048 32) (a1 : FVec Ideal Cert.Pre_finite_inputs.S32000x512 .f32)
    (a2 a3 a4 : FVec Ideal Cert.Pre_finite_inputs.S512x512 .f32) (a5 : FVec Ideal Cert.Pre_finite_inputs.S2048x512 .f32) (a6 : FVec Ideal Cert.Pre_finite_inputs.S2048 .f32)
    (a7 : FVec Ideal Cert.Pre_finite_inputs.S32000x2048 .f32) (a8 : FVec Ideal Cert.Pre_finite_inputs.S32000 .f32)
    (h : Cert.Pre_finite_inputs.fn (F := Ideal) x a1 a2 a3 a4 a5 a6 a7 a8 = fun _ => 1#1) :
    (∀ i, Spec.IsReal (a1 i)) ∧ (∀ i, Spec.IsReal (a2 i)) ∧ (∀ i, Spec.IsReal (a3 i))
      ∧ (∀ i, IntOp.cmpi .sge (x i) 0#32 = 1#1 ∧ IntOp.cmpi .slt (x i) 32000#32 = 1#1) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h1, h2⟩, h3⟩, -⟩, -⟩, -⟩, -⟩, -⟩, hge⟩, hlt⟩ := e
  refine ⟨fun i => ?_, fun i => ?_, fun i => ?_, fun i => ⟨?_, ?_⟩⟩
  · exact isReal_of_abs_lt_inf (a1 i) (Host.reduce_andi_all _ _ _ _ _ h1 i)
  · exact isReal_of_abs_lt_inf (a2 i) (Host.reduce_andi_all _ _ _ _ _ h2 i)
  · exact isReal_of_abs_lt_inf (a3 i) (Host.reduce_andi_all _ _ _ _ _ h3 i)
  · exact Host.reduce_andi_all _ _ _ _ _ hge i
  · exact Host.reduce_andi_all _ _ _ _ _ hlt i

end Cert.KernelIdeal.Val

end
-- ==== Proof.Val.Ref.lean ====
/-
  The reference program computes the specification's logits, and then the shared softmax over the vocabulary axis.

  Each intermediate array of the reference is read at explicit coordinates and identified with the specification's
  function of the same name: the three projections, the scores, the row maximum (a fold of `max` from `-∞`, maxed with
  `-∞` once more), the shifted exponentials, the row sums, the softmax weights, the weighted sum of `v` summed over the
  queries from zero, the hidden layer with its rectifier, the logits. The last eleven operations are the softmax over
  the vocabulary axis, the same operations as the kernel program's, so the reference's result is that one function of
  its logits.
-/
import proofs.«411274_j4071628997014_3_alg».proof.Proof.Gen.ReferenceIdeal.Run
import proofs.«411274_j4071628997014_3_alg».proof.Proof.Gen.ReferenceIdeal.Read
import proofs.«411274_j4071628997014_3_alg».proof.Proof.Val.Spec
import proofs.«411274_j4071628997014_3_alg».proof.Proof.Val.Tail
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val.Ref

open Cert.ReferenceIdeal Cert.ReferenceIdeal.Gen Cert.ReferenceIdeal.Read Idealize.ShloMosaic Idealize.ShloMosaic.ValueIdx Cert.KernelIdeal.Val

variable (x0 : (⟨S8x2048, .i32⟩ : BufTy).Contents (Elt Ideal)) (x1 : (⟨S32000x512, .f32⟩ : BufTy).Contents (Elt Ideal))
  (x2 x3 x4 : (⟨S512x512, .f32⟩ : BufTy).Contents (Elt Ideal)) (x5 : (⟨S2048x512, .f32⟩ : BufTy).Contents (Elt Ideal))
  (x6 : (⟨S2048, .f32⟩ : BufTy).Contents (Elt Ideal)) (x7 : (⟨S32000x2048, .f32⟩ : BufTy).Contents (Elt Ideal))
  (x8 : (⟨S32000, .f32⟩ : BufTy).Contents (Elt Ideal))

/-! ## Indices of the operands, at explicit coordinates -/

theorem lidx7 (b : Fin 8) (s : Fin 2048) (d k : Fin 512) : lidx_main_v7 (ix3 b s d) k = ix3 b s k :=
  funext fun a => Fin.ext (by match a with | ⟨0, _⟩ => rfl | ⟨1, _⟩ => rfl | ⟨2, _⟩ => rfl)
theorem ridx7 (b : Fin 8) (s : Fin 2048) (d k : Fin 512) : ridx_main_v7 (ix3 b s d) k = ix2 d k :=
  funext fun a => Fin.ext (by match a with | ⟨0, _⟩ => rfl | ⟨1, _⟩ => rfl)
theorem lidx8 (b : Fin 8) (s : Fin 2048) (d k : Fin 512) : lidx_main_v8 (ix3 b s d) k = ix3 b s k :=
  funext fun a => Fin.ext (by match a with | ⟨0, _⟩ => rfl | ⟨1, _⟩ => rfl | ⟨2, _⟩ => rfl)
theorem ridx8 (b : Fin 8) (s : Fin 2048) (d k : Fin 512) : ridx_main_v8 (ix3 b s d) k = ix2 d k :=
  funext fun a => Fin.ext (by match a with | ⟨0, _⟩ => rfl | ⟨1, _⟩ => rfl)
theorem lidx9 (b : Fin 8) (s : Fin 2048) (d k : Fin 512) : lidx_main_v9 (ix3 b s d) k = ix3 b s k :=
  funext fun a => Fin.ext (by match a with | ⟨0, _⟩ => rfl | ⟨1, _⟩ => rfl | ⟨2, _⟩ => rfl)
theorem ridx9 (b : Fin 8) (s : Fin 2048) (d k : Fin 512) : ridx_main_v9 (ix3 b s d) k = ix2 d k :=
  funext fun a => Fin.ext (by match a with | ⟨0, _⟩ => rfl | ⟨1, _⟩ => rfl)
theorem lidx10 (b : Fin 8) (s s' : Fin 2048) (k : Fin 512) : lidx_main_v10 (ix3 b s s') k = ix3 b s k :=
  funext fun a => Fin.ext (by match a with | ⟨0, _⟩ => rfl | ⟨1, _⟩ => rfl | ⟨2, _⟩ => rfl)
theorem ridx10 (b : Fin 8) (s s' : Fin 2048) (k : Fin 512) : ridx_main_v10 (ix3 b s s') k = ix3 b s' k :=
  funext fun a => Fin.ext (by match a with | ⟨0, _⟩ => rfl | ⟨1, _⟩ => rfl | ⟨2, _⟩ => rfl)
theorem idx15 (b : Fin 8) (s s' : Fin 2048) : idx_main_v14 (idx_main_v15 (ix3 b s s')) = ix2 b s :=
  funext fun a => Fin.ext (by match a with | ⟨0, _⟩ => rfl | ⟨1, _⟩ => rfl)
theorem idx18 (b : Fin 8) (s k : Fin 2048) : idx_main_v18 (ix2 b s) k = ix3 b s k :=
  funext fun a => Fin.ext (by match a with | ⟨0, _⟩ => rfl | ⟨1, _⟩ => rfl | ⟨2, _⟩ => rfl)
theorem idx20 (b : Fin 8) (s s' : Fin 2048) : idx_main_v19 (idx_main_v20 (ix3 b s s')) = ix2 b s :=
  funext fun a => Fin.ext (by match a with | ⟨0, _⟩ => rfl | ⟨1, _⟩ => rfl)
theorem lidx22 (b : Fin 8) (s : Fin 2048) (d : Fin 512) (k : Fin 2048) : lidx_main_v22 (ix3 b s d) k = ix3 b s k :=
  funext fun a => Fin.ext (by match a with | ⟨0, _⟩ => rfl | ⟨1, _⟩ => rfl | ⟨2, _⟩ => rfl)
theorem ridx22 (b : Fin 8) (s : Fin 2048) (d : Fin 512) (k : Fin 2048) : ridx_main_v22 (ix3 b s d) k = ix3 b k d :=
  funext fun a => Fin.ext (by match a with | ⟨0, _⟩ => rfl | ⟨1, _⟩ => rfl | ⟨2, _⟩ => rfl)
theorem idx23 (b : Fin 8) (d : Fin 512) (k : Fin 2048) : idx_main_v23 (ix2 b d) k = ix3 b k d :=
  funext fun a => Fin.ext (by match a with | ⟨0, _⟩ => rfl | ⟨1, _⟩ => rfl | ⟨2, _⟩ => rfl)
theorem lidx25 (b : Fin 8) (j : Fin 2048) (k : Fin 512) : lidx_main_v25 (ix2 b j) k = ix2 b k :=
  funext fun a => Fin.ext (by match a with | ⟨0, _⟩ => rfl | ⟨1, _⟩ => rfl)
theorem ridx25 (b : Fin 8) (j : Fin 2048) (k : Fin 512) : idx_main_v24 (ridx_main_v25 (ix2 b j) k) = ix2 j k :=
  funext fun a => Fin.ext (by match a with | ⟨0, _⟩ => rfl | ⟨1, _⟩ => rfl)
theorem idx27 (b : Fin 8) (j : Fin 2048) : idx_main_v26 (idx_main_v27 (ix2 b j)) = ix1 j :=
  funext fun a => Fin.ext (by match a with | ⟨0, _⟩ => rfl)
theorem lidx31 (b : Fin 8) (n : Fin 32000) (k : Fin 2048) : lidx_main_v31 (ix2 b n) k = ix2 b k :=
  funext fun a => Fin.ext (by match a with | ⟨0, _⟩ => rfl | ⟨1, _⟩ => rfl)
theorem ridx31 (b : Fin 8) (n : Fin 32000) (k : Fin 2048) : idx_main_v30 (ridx_main_v31 (ix2 b n) k) = ix2 n k :=
  funext fun a => Fin.ext (by match a with | ⟨0, _⟩ => rfl | ⟨1, _⟩ => rfl)
theorem idx33 (b : Fin 8) (n : Fin 32000) : idx_main_v32 (idx_main_v33 (ix2 b n)) = ix1 n :=
  funext fun a => Fin.ext (by match a with | ⟨0, _⟩ => rfl)

/-- The word of `-∞` is the bottom of the extended reals. -/
theorem ofBits_neg_inf : Ideal.ofBits .f32 0xFF800000#32 = (⊥ : EReal) := by simp [Ideal.ofBits, Ideal.ieee]

/-! ## The projections and the scores -/

/-- The gathered embeddings as a function of their coordinates. -/
abbrev E : Fin 8 → Fin 2048 → Fin 512 → EReal := Spec.of3 (val_main_v6 (F := Ideal) x0 x1)

/-- The query projection at (b, s, d). -/
theorem v7_eq (b : Fin 8) (s : Fin 2048) (d : Fin 512) :
    val_main_v7 (F := Ideal) x0 x1 x2 (ix3 b s d) = Spec.proj (E x0 x1) (Spec.of2 x2) b s d := by
  rw [val_main_v7_apply]
  refine Finset.sum_congr rfl fun k _ => ?_
  rw [lidx7, ridx7]
  rfl

/-- The key projection at (b, s, d). -/
theorem v8_eq (b : Fin 8) (s : Fin 2048) (d : Fin 512) :
    val_main_v8 (F := Ideal) x0 x1 x3 (ix3 b s d) = Spec.proj (E x0 x1) (Spec.of2 x3) b s d := by
  rw [val_main_v8_apply]
  refine Finset.sum_congr rfl fun k _ => ?_
  rw [lidx8, ridx8]
  rfl

/-- The value projection at (b, s, d). -/
theorem v9_eq (b : Fin 8) (s : Fin 2048) (d : Fin 512) :
    val_main_v9 (F := Ideal) x0 x1 x4 (ix3 b s d) = Spec.proj (E x0 x1) (Spec.of2 x4) b s d := by
  rw [val_main_v9_apply]
  refine Finset.sum_congr rfl fun k _ => ?_
  rw [lidx9, ridx9]
  rfl

/-- The scores of the reference, as the specification's function of the inputs. -/
abbrev sc : Fin 8 → Fin 2048 → Fin 2048 → EReal :=
  Spec.score (Spec.proj (E x0 x1) (Spec.of2 x2)) (Spec.proj (E x0 x1) (Spec.of2 x3))

/-- The scores at (b, s, s'). -/
theorem v10_eq (b : Fin 8) (s s' : Fin 2048) :
    val_main_v10 (F := Ideal) x0 x1 x2 x3 (ix3 b s s') = sc x0 x1 x2 x3 b s s' := by
  rw [val_main_v10_apply]
  refine Finset.sum_congr rfl fun k _ => ?_
  rw [lidx10, ridx10, v7_eq, v8_eq]

/-! ## The row softmax -/

/-- The reduced index (b, s) with the key coordinate `k` put back is (b, s, k). -/
theorem lift11 (h : S8x2048x2048.Reduces [2] S8x2048) (b : Fin 8) (s : Fin 2048) (k : Fin (S8x2048x2048.size 2)) :
    h.lift (ix2 b s) k = ix3 b s (⟨k.val, k.isLt⟩ : Fin 2048) := by
  funext c; apply Fin.ext
  match c with | ⟨0, _⟩ => rfl | ⟨1, _⟩ => rfl | ⟨2, _⟩ => rfl

/-- The row maximum, folded from `-∞`, at (b, s). -/
theorem v11_eq (b : Fin 8) (s : Fin 2048) :
    val_main_v11 (F := Ideal) x0 x1 x2 x3 (ix2 b s) = Spec.rowMax (sc x0 x1 x2 x3) b s := by
  unfold val_main_v11
  have h : S8x2048x2048.Reduces [2] S8x2048 := by decide
  rw [Host.reduce_eq_fold_single FloatOps.maximumf _ _ _ h _]
  have hf : (val_main_v10 (F := Ideal) x0 x1 x2 x3 ∘ h.lift (ix2 b s)) = fun k : Fin 2048 => sc x0 x1 x2 x3 b s k :=
    funext fun k => (congrArg (val_main_v10 (F := Ideal) x0 x1 x2 x3) (lift11 h b s k)).trans (v10_eq x0 x1 x2 x3 b s _)
  rw [val_main_cst_apply, Ideal.ofBits_def, ofBits_neg_inf]
  exact congrArg (fun f => Finset.fold max (⊥ : EReal) f (Finset.univ : Finset (Fin 2048))) hf

/-- The row maximum, maxed with `-∞` once more, at (b, s). -/
theorem v13_eq (b : Fin 8) (s : Fin 2048) :
    val_main_v13 (F := Ideal) x0 x1 x2 x3 (ix2 b s) = Spec.rowMax (sc x0 x1 x2 x3) b s := by
  rw [val_main_v13_apply, val_main_v12_apply, val_main_cst_1_apply, v11_eq, Ideal.ofBits_def, ofBits_neg_inf, Ideal.maximumf_def]
  exact max_bot_left _

/-- The row maximum broadcast along the keys. -/
theorem v15_eq (b : Fin 8) (s s' : Fin 2048) :
    val_main_v15 (F := Ideal) x0 x1 x2 x3 (ix3 b s s') = Spec.rowMax (sc x0 x1 x2 x3) b s := by
  rw [val_main_v15_apply, val_main_v14_apply, idx15, v13_eq]

/-- The shifted exponentials at (b, s, s'). -/
theorem v17_eq (b : Fin 8) (s s' : Fin 2048) :
    val_main_v17 (F := Ideal) x0 x1 x2 x3 (ix3 b s s') = Spec.pexp (sc x0 x1 x2 x3) b s s' := by
  rw [val_main_v17_apply, val_main_v16_apply, v10_eq, v15_eq, Ideal.hostUnary_exp_def]
  rfl

/-- The row's denominator at (b, s). -/
theorem v18_eq (b : Fin 8) (s : Fin 2048) :
    val_main_v18 (F := Ideal) x0 x1 x2 x3 (ix2 b s) = Spec.den (sc x0 x1 x2 x3) b s := by
  rw [val_main_v18_apply, val_main_cst_2_apply, Ideal.ofBits_def, Ideal.ofBits_zero_f32, zero_add]
  refine Finset.sum_congr rfl fun k _ => ?_
  rw [idx18, v17_eq]

/-- The denominator broadcast along the keys. -/
theorem v20_eq (b : Fin 8) (s s' : Fin 2048) :
    val_main_v20 (F := Ideal) x0 x1 x2 x3 (ix3 b s s') = Spec.den (sc x0 x1 x2 x3) b s := by
  rw [val_main_v20_apply, val_main_v19_apply, idx20, v18_eq]

/-- The softmax weights at (b, s, s'). -/
theorem v21_eq (b : Fin 8) (s s' : Fin 2048) :
    val_main_v21 (F := Ideal) x0 x1 x2 x3 (ix3 b s s') = Spec.attn (sc x0 x1 x2 x3) b s s' := by
  rw [val_main_v21_apply, v17_eq, v20_eq, Ideal.hostDivf_def]
  rfl

/-! ## The weighted sum of the values, the hidden layer, the logits -/

/-- The value projection of the reference, as the specification's function of the inputs. -/
abbrev vv : Fin 8 → Fin 2048 → Fin 512 → EReal := Spec.proj (E x0 x1) (Spec.of2 x4)

/-- One query's weighted sum of the values at (b, s, d). -/
theorem v22_eq (b : Fin 8) (s : Fin 2048) (d : Fin 512) :
    val_main_v22 (F := Ideal) x0 x1 x2 x3 x4 (ix3 b s d)
      = ∑ s' : Fin 2048, Spec.attn (sc x0 x1 x2 x3) b s s' * vv x0 x1 x4 b s' d := by
  rw [val_main_v22_apply]
  refine Finset.sum_congr rfl fun k _ => ?_
  rw [lidx22, ridx22, v21_eq, v9_eq]

/-- The sum over the queries, from zero, at (b, d). -/
theorem v23_eq (b : Fin 8) (d : Fin 512) :
    val_main_v23 (F := Ideal) x0 x1 x2 x3 x4 (ix2 b d) = Spec.voutR (Spec.attn (sc x0 x1 x2 x3)) (vv x0 x1 x4) b d := by
  rw [val_main_v23_apply, val_main_cst_3_apply, Ideal.ofBits_def, Ideal.ofBits_zero_f32]
  refine congrArg (0 + ·) (Finset.sum_congr rfl fun k _ => ?_)
  rw [idx23, v22_eq]

/-- The reference's summed attention output, as the specification's function of the inputs. -/
abbrev vo : Fin 8 → Fin 512 → EReal := Spec.voutR (Spec.attn (sc x0 x1 x2 x3)) (vv x0 x1 x4)

/-- The first linear layer's product at (b, j). -/
theorem v25_eq (b : Fin 8) (j : Fin 2048) :
    val_main_v25 (F := Ideal) x0 x1 x2 x3 x4 x5 (ix2 b j) = ∑ d : Fin 512, vo x0 x1 x2 x3 x4 b d * Spec.of2 x5 j d := by
  rw [val_main_v25_apply]
  refine Finset.sum_congr rfl fun k _ => ?_
  rw [lidx25, v23_eq, val_main_v24_apply, ridx25]
  rfl

/-- The hidden layer before the rectifier at (b, j). -/
theorem v28_eq (b : Fin 8) (j : Fin 2048) :
    val_main_v28 (F := Ideal) x0 x1 x2 x3 x4 x5 x6 (ix2 b j)
      = (∑ d : Fin 512, vo x0 x1 x2 x3 x4 b d * Spec.of2 x5 j d) + Spec.of1 x6 j := by
  rw [val_main_v28_apply, v25_eq, val_main_v27_apply, val_main_v26_apply, idx27]
  rfl

/-- The hidden layer at (b, j). -/
theorem v29_eq (b : Fin 8) (j : Fin 2048) :
    val_main_v29 (F := Ideal) x0 x1 x2 x3 x4 x5 x6 (ix2 b j)
      = Spec.hid (vo x0 x1 x2 x3 x4) (Spec.of2 x5) (Spec.of1 x6) b j := by
  rw [val_main_v29_apply, v28_eq, val_main_call0_v0_apply, val_main_call0_cst_apply, Ideal.ofBits_def, Ideal.ofBits_zero_f32,
    Ideal.maximumf_def]
  rfl

/-- The reference's hidden layer, as the specification's function of the inputs. -/
abbrev hh : Fin 8 → Fin 2048 → EReal := Spec.hid (vo x0 x1 x2 x3 x4) (Spec.of2 x5) (Spec.of1 x6)

/-- The second linear layer's product at (b, n). -/
theorem v31_eq (b : Fin 8) (n : Fin 32000) :
    val_main_v31 (F := Ideal) x0 x1 x2 x3 x4 x5 x6 x7 (ix2 b n) = ∑ j : Fin 2048, hh x0 x1 x2 x3 x4 x5 x6 b j * Spec.of2 x7 n j := by
  rw [val_main_v31_apply]
  refine Finset.sum_congr rfl fun k _ => ?_
  rw [lidx31, v29_eq, val_main_v30_apply, ridx31]
  rfl

/-- The logits at (b, n). -/
theorem v34_eq (b : Fin 8) (n : Fin 32000) :
    val_main_v34 (F := Ideal) x0 x1 x2 x3 x4 x5 x6 x7 x8 (ix2 b n)
      = Spec.logitsR (E x0 x1) (Spec.of2 x2) (Spec.of2 x3) (Spec.of2 x4) (Spec.of2 x5) (Spec.of1 x6) (Spec.of2 x7) (Spec.of1 x8) b n := by
  rw [val_main_v34_apply, v31_eq, val_main_v33_apply, val_main_v32_apply, idx33]
  rfl

/-- THE REFERENCE'S LOGITS are the specification's, index by index. -/
theorem ref_logits (j : S8x32000.Idx) :
    val_main_v34 (F := Ideal) x0 x1 x2 x3 x4 x5 x6 x7 x8 j
      = Spec.logitsR (Spec.of3 (val_main_v6 (F := Ideal) x0 x1)) (Spec.of2 x2) (Spec.of2 x3) (Spec.of2 x4) (Spec.of2 x5) (Spec.of1 x6) (Spec.of2 x7) (Spec.of1 x8) (j 0) (j 1) :=
  (congrArg (val_main_v34 (F := Ideal) x0 x1 x2 x3 x4 x5 x6 x7 x8) (eq_ix2 j)).trans (v34_eq x0 x1 x2 x3 x4 x5 x6 x7 x8 (j 0) (j 1))

/-! ## The softmax over the vocabulary axis -/

/-- THE REFERENCE'S RESULT is the shared softmax of its logits: the last eleven operations are the same operations. -/
theorem ref_tail :
    val_main_v45 (F := Ideal) x0 x1 x2 x3 x4 x5 x6 x7 x8 = Cert.KernelIdeal.Val.tail (val_main_v34 (F := Ideal) x0 x1 x2 x3 x4 x5 x6 x7 x8) := by
  unfold val_main_v45 val_main_v44 val_main_v43 val_main_v42 val_main_cst_6 val_main_v41 val_main_v40 val_main_v39 val_main_v38
    val_main_v37 val_main_v36 val_main_cst_5 val_main_v35 val_main_cst_4 Cert.KernelIdeal.Val.tail Cert.KernelIdeal.Val.tailExp
    Cert.KernelIdeal.Val.tailMax
  generalize val_main_v34 (F := Ideal) x0 x1 x2 x3 x4 x5 x6 x7 x8 = L
  rfl

end Cert.KernelIdeal.Val.Ref

end
-- ==== Proof.Val.Law.lean ====
/-
  The law that joins the two programs: the kernel's column sums of the softmax, accumulated tile by tile, times v, against
  the reference's per-query products summed over the queries.
-/
import proofs.«411274_j4071628997014_3_alg».proof.Proof.Val.Spec
import Mathlib.Data.Finset.Fold

noncomputable section

namespace Cert.KernelIdeal.Val.Spec

open Idealize.ShloMosaic

/-- The word `0xFF800000` is `-∞`. -/
theorem ofBits_neg_inf : Ideal.ofBits .f32 0xFF800000#32 = (⊥ : EReal) := by simp [Ideal.ofBits, Ideal.ieee]

/-- A sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of nonnegative extended reals distributes over a product on the right. -/
theorem sum_mul_of_nonneg {ι : Type} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- The eight query tiles of 256 rows are the 2048 rows. -/
def tileEquiv : Fin 8 × Fin 256 ≃ Fin 2048 where
  toFun p := tileRow p.1 p.2
  invFun s := (⟨s.val / 256, by have := s.isLt; omega⟩, ⟨s.val % 256, Nat.mod_lt _ (by decide)⟩)
  left_inv p := by
    obtain ⟨i, r⟩ := p
    have hi := i.isLt; have hr := r.isLt
    refine Prod.ext (Fin.ext ?_) (Fin.ext ?_)
    · show (256 * i.val + r.val) / 256 = i.val; omega
    · show (256 * i.val + r.val) % 256 = r.val; omega
  right_inv s := by
    refine Fin.ext ?_
    show 256 * (s.val / 256) + s.val % 256 = s.val
    omega

/-- A sum over the rows, tile by tile. -/
theorem sum_tiles (g : Fin 2048 → EReal) : ∑ i : Fin 8, ∑ r : Fin 256, g (tileRow i r) = ∑ s : Fin 2048, g s := by
  rw [← Equiv.sum_comp tileEquiv g, Fintype.sum_prod_type]
  rfl

/-- The kernel's running column sum after the last tile is the column sum over all the rows. -/
theorem colAcc_last (a : Fin 8 → Fin 2048 → Fin 2048 → EReal) (b : Fin 8) (s' : Fin 2048) :
    colAcc a b 7 (by decide) s' = ∑ s : Fin 2048, a b s s' := by
  rw [← sum_tiles (fun s => a b s s'), Fin.sum_univ_eight]
  simp only [colAcc, tileSum, zero_add]
  rfl

/-- With nonnegative weights the two orders of summation agree. -/
theorem voutK_eq_voutR (a : Fin 8 → Fin 2048 → Fin 2048 → EReal) (v : Fin 8 → Fin 2048 → Fin 512 → EReal)
    (ha : ∀ b s s', 0 ≤ a b s s') : voutK a v = voutR a v := by
  funext b d
  unfold voutK voutR
  rw [zero_add, Finset.sum_comm]
  refine Finset.sum_congr rfl fun s' _ => ?_
  rw [colAcc_last, sum_mul_of_nonneg _ _ fun s _ => ha b s s']

/-! ## The softmax weights are nonnegative when the scores are real -/

theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- The maximum of a row of reals is a real. -/
theorem isReal_rowMax {sc : Fin 8 → Fin 2048 → Fin 2048 → EReal} (hsc : ∀ b s s', IsReal (sc b s s')) (b : Fin 8) (s : Fin 2048) :
    IsReal (rowMax sc b s) := by
  unfold rowMax
  have hbot : (Finset.univ : Finset (Fin 2048)).fold max (⊥ : EReal) (fun s' => sc b s s') ≠ ⊥ := by
    obtain ⟨r, hr⟩ := hsc b s 0
    have : sc b s 0 ≤ (Finset.univ : Finset (Fin 2048)).fold max (⊥ : EReal) (fun s' => sc b s s') :=
      (Finset.le_fold_max _).mpr (Or.inr ⟨0, Finset.mem_univ _, le_rfl⟩)
    intro h; rw [h, hr] at this; exact absurd this (by simp)
  have htop : (Finset.univ : Finset (Fin 2048)).fold max (⊥ : EReal) (fun s' => sc b s s') ≠ ⊤ := by
    refine ne_of_lt ((Finset.fold_max_lt _).mpr ⟨bot_lt_top, fun s' _ => ?_⟩)
    obtain ⟨r, hr⟩ := hsc b s s'; rw [hr]; exact EReal.coe_lt_top r
  exact ⟨_, (EReal.coe_toReal htop hbot).symm⟩

/-- With real scores every softmax weight is nonnegative. -/
theorem attn_nonneg {sc : Fin 8 → Fin 2048 → Fin 2048 → EReal} (hsc : ∀ b s s', IsReal (sc b s s')) (b : Fin 8) (s s' : Fin 2048) :
    0 ≤ attn sc b s s' := by
  obtain ⟨m, hm⟩ := isReal_rowMax hsc b s
  choose g hg using fun t => hsc b s t
  have hp : ∀ t, pexp sc b s t = ((Real.exp (g t - m) : ℝ) : EReal) := fun t => by
    unfold pexp; rw [hg t, hm, ← EReal.coe_sub, Ideal.exp_coe]
  have hden : den sc b s = ((∑ t : Fin 2048, Real.exp (g t - m) : ℝ) : EReal) := by
    unfold den; rw [← coe_sum]; exact Finset.sum_congr rfl fun t _ => hp t
  have hpos : (0 : ℝ) < ∑ t : Fin 2048, Real.exp (g t - m) :=
    Finset.sum_pos (fun t _ => Real.exp_pos _) ⟨0, Finset.mem_univ _⟩
  unfold attn
  rw [hden, hp s', Ideal.div_coe hpos.ne', ← EReal.coe_mul]
  exact_mod_cast mul_nonneg (Real.exp_pos _).le (by positivity)

/-- THE BRIDGE: with real embeddings and real query and key projections' weights, the kernel's logits are the reference's. -/
theorem logitsK_eq_logitsR (E : Fin 8 → Fin 2048 → Fin 512 → EReal) (Wq Wk Wv : Fin 512 → Fin 512 → EReal) (W1 : Fin 2048 → Fin 512 → EReal)
    (b1 : Fin 2048 → EReal) (W2 : Fin 32000 → Fin 2048 → EReal) (b2 : Fin 32000 → EReal)
    (hE : ∀ b s e, IsReal (E b s e)) (hWq : ∀ d e, IsReal (Wq d e)) (hWk : ∀ d e, IsReal (Wk d e)) :
    logitsK E Wq Wk Wv W1 b1 W2 b2 = logitsR E Wq Wk Wv W1 b1 W2 b2 := by
  unfold logitsK logitsR hidK
  rw [voutK_eq_voutR _ _ (attn_nonneg (isReal_score (isReal_proj hE hWq) (isReal_proj hE hWk)))]

end Cert.KernelIdeal.Val.Spec

end
-- ==== Proof.Val.Bridge.lean ====
/-
  The kernel program's result, and the bridge to the reference's.

  The kernel program gathers the embedding rows on the host, runs the attention region (per batch row: the three
  projections, the row softmax of the scores, its column sums accumulated over eight query tiles, the product with v,
  the first linear layer and the relu), reshapes, runs the logits region (a matrix product with the bias, vocabulary tile
  by tile) and applies the softmax over the vocabulary on the host. Read back through the run's boundaries, its result
  is that last softmax of `Spec.logitsK` of the inputs; the reference's is the same softmax of `Spec.logitsR`; the two
  logits agree when the embeddings and the query and key weights are real (Val/Law.lean), which the precondition says.
-/
import proofs.«411274_j4071628997014_3_alg».proof.Proof.Val.KRead
import proofs.«411274_j4071628997014_3_alg».proof.Proof.Val.K0
import proofs.«411274_j4071628997014_3_alg».proof.Proof.Val.K1
import proofs.«411274_j4071628997014_3_alg».proof.Proof.Val.Take
import proofs.«411274_j4071628997014_3_alg».proof.Proof.Val.Pre
import proofs.«411274_j4071628997014_3_alg».proof.Proof.Val.Ref
import proofs.«411274_j4071628997014_3_alg».proof.Proof.Val.Law
import Idealize.ShloMosaic.Lib.ValueLayout

noncomputable section

namespace Cert.KernelIdeal.Val

open Cert.KernelIdeal Cert.KernelIdeal.Fr Cert.KernelIdeal.Facts₀ Cert.KernelIdeal.Facts
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments as arrays of their literal types -/

abbrev xA : S8x2048.Idx → BitVec 32 := m ((c : Thread nD τ).loc main_arg0)
abbrev embA : S32000x512.Idx → EReal := m ((c : Thread nD τ).loc main_arg1)
abbrev wqA : S512x512.Idx → EReal := m ((c : Thread nD τ).loc main_arg2)
abbrev wkA : S512x512.Idx → EReal := m ((c : Thread nD τ).loc main_arg3)
abbrev wvA : S512x512.Idx → EReal := m ((c : Thread nD τ).loc main_arg4)
abbrev w1A : S2048x512.Idx → EReal := m ((c : Thread nD τ).loc main_arg5)
abbrev b1A : S2048.Idx → EReal := m ((c : Thread nD τ).loc main_arg6)
abbrev w2A : S32000x2048.Idx → EReal := m ((c : Thread nD τ).loc main_arg7)
abbrev b2A : S32000.Idx → EReal := m ((c : Thread nD τ).loc main_arg8)

/-- The gathered embedding rows (the table's rows at the token ids, negative ids wrapped once, then clamped). -/
abbrev gA : S8x2048x512.Idx → EReal := Cert.ReferenceIdeal.Read.val_main_v6 (F := Ideal) (xA m c) (embA m c)

/-- The kernel program's logits, as the specification's function of the inputs. -/
def logitsKA : S8x32000.Idx → EReal := fun j =>
  Spec.logitsK (Spec.of3 (gA m c)) (Spec.of2 (wqA m c)) (Spec.of2 (wkA m c)) (Spec.of2 (wvA m c)) (Spec.of2 (w1A m c))
    (Spec.of1 (b1A m c)) (Spec.of2 (w2A m c)) (Spec.of1 (b2A m c)) (j 0) (j 1)

/-- The token ids are in range: what the precondition's last two conjuncts say. -/
def InRange : Prop := ∀ i, IntOp.cmpi .sge (xA m c i) 0#32 = 1#1 ∧ IntOp.cmpi .slt (xA m c i) 32000#32 = 1#1

/-! ## Region 0's arrays as the region finds them -/

/-- The embeddings the attention region is entered with are the gathered rows (the in-range mask selects the gather). -/
theorem earr_eq (hx : InRange m c) : earr (V2 m ρ) c = gA m c := by
  show (V2 m ρ c main_v0 : S8x2048x512.Idx → EReal) = _
  rw [V2_main_v0 m ρ c]
  exact host0_main_v0 (W0 m ρ c) hx

theorem b1arr_eq (j : Fin 2048) : b1arr (V2 m ρ) c (ix2 0 j) = Spec.of1 (b1A m c) j := by
  show (V2 m ρ c main_v1 : S1x2048.Idx → EReal) (ix2 0 j) = _
  rw [V2_main_v1 m ρ c]
  exact shapeCast_a_1a_apply _ _ 0 j

/-- The hidden layer the logits region is entered with: the attention region's output array, reshaped. -/
theorem harr_eq (hx : InRange m c) (b : Fin 8) (k : Fin 2048) :
    harr (V4 m ρ) c (ix2 b k)
      = Spec.hidK (Spec.of3 (gA m c)) (Spec.of2 (wqA m c)) (Spec.of2 (wkA m c)) (Spec.of2 (wvA m c)) (Spec.of2 (w1A m c)) (Spec.of1 (b1A m c)) b k := by
  show (V4 m ρ c main_v4 : S8x2048.Idx → EReal) (ix2 b k) = _
  rw [V4_main_v4 m ρ c]
  rw [shapeCast_apply _ _ (ix2 b k) (ix3 b 0 k) (by
    rw [Shape.rowMajor_val_two, Shape.rowMajor_val_three]
    show (b.val * 1 + 0) * 2048 + k.val = b.val * 2048 + k.val
    omega)]
  rw [W3_main_v3 m ρ c, arr0 (V2 m ρ) c b k, earr_eq m ρ c hx]
  have hb : (fun j => b1arr (V2 m ρ) c (ix2 0 j)) = Spec.of1 (b1A m c) := funext fun j => b1arr_eq m ρ c j
  rw [hb]
  show Spec.hidK (Spec.of3 (gA m c)) (Spec.of2 (V2 m ρ c main_arg2 : S512x512.Idx → EReal)) (Spec.of2 (V2 m ρ c main_arg3 : S512x512.Idx → EReal))
      (Spec.of2 (V2 m ρ c main_arg4 : S512x512.Idx → EReal)) (Spec.of2 (V2 m ρ c main_arg5 : S2048x512.Idx → EReal)) (Spec.of1 (b1A m c)) b k = _
  rw [V2_main_arg2 m ρ c, V2_main_arg3 m ρ c, V2_main_arg4 m ρ c, V2_main_arg5 m ρ c]

theorem warr_eq : warr (V4 m ρ) c = w2A m c := V4_main_arg7 m ρ c

theorem barr_eq (n : Fin 32000) : barr (V4 m ρ) c (ix2 0 n) = Spec.of1 (b2A m c) n := by
  show (V4 m ρ c main_v2 : S1x32000.Idx → EReal) (ix2 0 n) = _
  rw [V4_main_v2 m ρ c]
  exact shapeCast_a_1a_apply _ _ 0 n

/-! ## The kernel program's result -/

/-- THE KERNEL PROGRAM'S RESULT: the final buffer holds the vocabulary softmax of the specification's logits. -/
theorem kernel_result (hx : InRange m c) :
    (W6 m ρ c (Proc.devRef .tc main_v16) : S8x32000.Idx → EReal) = tail (logitsKA m c) := by
  rw [W6_main_v16 m ρ c, W5_main_v5 m ρ c, arr1_eq (V4 m ρ) c]
  refine congrArg tail (funext fun j => ?_)
  unfold logitsOf logitsKA Spec.logitsK Spec.logit
  rw [warr_eq m ρ c]
  have h1 : ∀ k : Fin 2048, harr (V4 m ρ) c (ix2 (j 0) k) = Spec.hidK (Spec.of3 (gA m c)) (Spec.of2 (wqA m c)) (Spec.of2 (wkA m c)) (Spec.of2 (wvA m c)) (Spec.of2 (w1A m c)) (Spec.of1 (b1A m c)) (j 0) k :=
    fun k => harr_eq m ρ c hx (j 0) k
  rw [barr_eq m ρ c (j 1)]
  exact congrArg (· + Spec.of1 (b2A m c) (j 1)) (Finset.sum_congr rfl fun k _ => by rw [h1 k]; rfl)

/-! ## The reference's result, and the bridge -/

/-- Every gathered embedding is an entry of the table: real when the table is. -/
theorem isReal_gA (hemb : ∀ i, Spec.IsReal (embA m c i)) (b : Fin 8) (s : Fin 2048) (e : Fin 512) : Spec.IsReal (Spec.of3 (gA m c) b s e) :=
  hemb _

/-- THE BRIDGE: with a real table and real query and key weights the reference's result term is the kernel program's. -/
theorem reference_result (hemb : ∀ i, Spec.IsReal (embA m c i)) (hwq : ∀ i, Spec.IsReal (wqA m c i)) (hwk : ∀ i, Spec.IsReal (wkA m c i)) :
    Cert.ReferenceIdeal.Read.val_main_v45 (F := Ideal) (xA m c) (embA m c) (wqA m c) (wkA m c) (wvA m c) (w1A m c) (b1A m c) (w2A m c) (b2A m c)
      = tail (logitsKA m c) := by
  rw [Ref.ref_tail]
  refine congrArg tail (funext fun j => ?_)
  rw [Ref.ref_logits]
  exact (congrFun (congrFun (Spec.logitsK_eq_logitsR (Spec.of3 (gA m c)) (Spec.of2 (wqA m c)) (Spec.of2 (wkA m c)) (Spec.of2 (wvA m c))
    (Spec.of2 (w1A m c)) (Spec.of1 (b1A m c)) (Spec.of2 (w2A m c)) (Spec.of1 (b2A m c))
    (isReal_gA m c hemb) (fun d e => hwq _) (fun d e => hwk _)) (j 0)) (j 1)).symm

end Cert.KernelIdeal.Val

end
-- ==== Proof.lean ====
/-
  Both programs compute, for token ids in range and finite weights, the vocabulary softmax of
      logits b n = Σ_j relu(Σ_d vout b d · W1 j d + b1 j) · W2 n j + b2 n,
  where vout b d = Σ_s Σ_s' softmax_s'(q b s · k b s') · v b s' d over the gathered embeddings' projections q, k, v.
  The reference sums over the queries s after the product with v; the kernel accumulates the softmax's column sums over
  eight query tiles and multiplies them with v once: equal on the extended reals because the softmax weights are
  nonnegative when the scores are real (Val/Law.lean). The kernel program's result is read back through its run
  (two kernel regions among four host stretches: KernelIdeal/Run.lean, Val/KRead.lean, Val/K0.lean, Val/K1.lean), the
  reference's through its run's term (Val/Ref.lean); Val/Bridge.lean joins them. The frames of the two kernel programs are
  the run with the arguments read back; the reference's frame is its run with the result dropped. The precondition
  (finite float inputs, token ids in `[0, 32000)`) gives the real table and weights and the in-range ids (Val/Pre.lean):
  out of range the kernel's gather masks a row with a NaN pattern where the reference's clamps.
-/
import proofs.«411274_j4071628997014_3_alg».proof.Defs
import proofs.«411274_j4071628997014_3_alg».proof.Proof.Gen.Kernel
import proofs.«411274_j4071628997014_3_alg».proof.Proof.Gen.KernelIdeal
import proofs.«411274_j4071628997014_3_alg».proof.Proof.Gen.ReferenceIdeal
import proofs.«411274_j4071628997014_3_alg».proof.Proof.Gen.Pre_finite_inputs
import proofs.«411274_j4071628997014_3_alg».proof.Proof.Gen.ReferenceIdeal.Run
import proofs.«411274_j4071628997014_3_alg».proof.Proof.Gen.ReferenceIdeal.Read
import proofs.«411274_j4071628997014_3_alg».proof.Proof.Kernel.Run
import proofs.«411274_j4071628997014_3_alg».proof.Proof.KernelIdeal.Run
import proofs.«411274_j4071628997014_3_alg».proof.Proof.Val.Bridge
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ => Cert.Kernel.Fr.frame m ρ

/-- The idealized program likewise. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at the vocabulary softmax of the same logits. -/
theorem algebraic : Cert.algebraic_KernelIdeal_ReferenceIdeal := by
  intro m ρ m' ρ' hpre hagree
  have hdec := fun c => Cert.KernelIdeal.Val.pre_decode _ _ _ _ _ _ _ _ _ (hpre c)
  refine ⟨fun c => Cert.KernelIdeal.Val.tail (Cert.KernelIdeal.Val.logitsKA m c), ?_, ?_⟩
  · refine (θ_run Cert.KernelIdeal.defs _ _).mono (fun r h c => ⟨?_, ?_, ?_, ?_, ?_, ?_, ?_, ?_, ?_, ?_⟩) (Cert.KernelIdeal.Fr.run_all m ρ)
    · exact (h c _ (Cert.KernelIdeal.Fr.mem_uc Cert.KernelIdeal.main_v16 (by decide))).trans (Cert.KernelIdeal.Val.kernel_result m ρ c (hdec c).2.2.2)
    · exact (h c _ (Cert.KernelIdeal.Fr.mem_uc Cert.KernelIdeal.main_arg0 (by decide))).trans (Cert.KernelIdeal.Fr.W6_main_arg0 m ρ c)
    · exact (h c _ (Cert.KernelIdeal.Fr.mem_uc Cert.KernelIdeal.main_arg1 (by decide))).trans (Cert.KernelIdeal.Fr.W6_main_arg1 m ρ c)
    · exact (h c _ (Cert.KernelIdeal.Fr.mem_uc Cert.KernelIdeal.main_arg2 (by decide))).trans (Cert.KernelIdeal.Fr.W6_main_arg2 m ρ c)
    · exact (h c _ (Cert.KernelIdeal.Fr.mem_uc Cert.KernelIdeal.main_arg3 (by decide))).trans (Cert.KernelIdeal.Fr.W6_main_arg3 m ρ c)
    · exact (h c _ (Cert.KernelIdeal.Fr.mem_uc Cert.KernelIdeal.main_arg4 (by decide))).trans (Cert.KernelIdeal.Fr.W6_main_arg4 m ρ c)
    · exact (h c _ (Cert.KernelIdeal.Fr.mem_uc Cert.KernelIdeal.main_arg5 (by decide))).trans (Cert.KernelIdeal.Fr.W6_main_arg5 m ρ c)
    · exact (h c _ (Cert.KernelIdeal.Fr.mem_uc Cert.KernelIdeal.main_arg6 (by decide))).trans (Cert.KernelIdeal.Fr.W6_main_arg6 m ρ c)
    · exact (h c _ (Cert.KernelIdeal.Fr.mem_uc Cert.KernelIdeal.main_arg7 (by decide))).trans (Cert.KernelIdeal.Fr.W6_main_arg7 m ρ c)
    · exact (h c _ (Cert.KernelIdeal.Fr.mem_uc Cert.KernelIdeal.main_arg8 (by decide))).trans (Cert.KernelIdeal.Fr.W6_main_arg8 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact Cert.KernelIdeal.Val.reference_result m c (hdec c).1 (hdec c).2.1 (hdec c).2.2.1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
